-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x25000x1296 : Shape := ⟨3, ![4, 25000, 1296]⟩
abbrev S4x1296x256 : Shape := ⟨3, ![4, 1296, 256]⟩
abbrev S4x256 : Shape := ⟨2, ![4, 256]⟩
abbrev S4x256x256 : Shape := ⟨3, ![4, 256, 256]⟩
abbrev S4x256x1 : Shape := ⟨3, ![4, 256, 1]⟩
abbrev S4x1 : Shape := ⟨2, ![4, 1]⟩
abbrev S4x25000 : Shape := ⟨2, ![4, 25000]⟩
abbrev S_ : Shape := ⟨0, ![]⟩

class Facts : Prop where
  bcast_S_S4x25000x1296 : S_.BroadcastsInDim S4x25000x1296 (![] : Fin 0 → Fin S4x25000x1296.rank)
  reducesTo_S4x25000x1296_S_d0_1_2 : S4x25000x1296.ReducesTo [0, 1, 2] S_
  h_S_ : 0 < S_.numel
  bcast_S_S4x1296x256 : S_.BroadcastsInDim S4x1296x256 (![] : Fin 0 → Fin S4x1296x256.rank)
  reducesTo_S4x1296x256_S_d0_1_2 : S4x1296x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256x1 : S_.BroadcastsInDim S4x256x1 (![] : Fin 0 → Fin S4x256x1.rank)
  reducesTo_S4x256x1_S_d0_1_2 : S4x256x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part2 {F : FTy → Type} [FloatOps F] (main_arg7 : FVec F S4x256x1 .f32) (main_arg8 : FVec F S4x1 .f32) (main_v33 : IVec S_ 1) : IVec S_ 1 :=
  let main_v34 : FVec F S4x256x1 .f32 := Host.absf main_arg7
  let main_cst_12 : FVec F S_ .f32 := constant S_ .f32 0x7F800000#32
  let main_v35 : FVec F S4x256x1 .f32 := broadcastInDim S4x256x1 ![] bcast_S_S4x256x1 main_cst_12
  let main_v36 : IVec S4x256x1 1 := cmpf .olt main_v34 main_v35
  let main_c_13 : IVec S_ 1 := constantI S_ 1 1#1
  let main_v37 : IVec S_ 1 := (fun x v => Host.reduce IntOp.andi x v reducesTo_S4x256x1_S_d0_1_2 h_S_) main_v36 main_c_13
  let main_v38 : IVec S_ 1 := andi main_v33 main_v37
  let main_v39 : FVec F S4x1 .f32 := Host.absf main_arg8
  let main_cst_14 : FVec F S_ .f32 := constant S_ .f32 0x7F800000#32
  let main_v40 : FVec F S4x1 .f32 := broadcastInDim S4x1 ![] bcast_S_S4x1 main_cst_14
  let main_v41 : IVec S4x1 1 := cmpf .olt main_v39 main_v40
  let main_c_15 : IVec S_ 1 := constantI S_ 1 1#1
  let main_v42 : IVec S_ 1 := (fun x v => Host.reduce IntOp.andi x v reducesTo_S4x1_S_d0_1 h_S_) main_v41 main_c_15
  let main_v43 : IVec S_ 1 := andi main_v38 main_v42
  main_v43

def fn_part1 {F : FTy → Type} [FloatOps F] (main_arg4 : FVec F S4x256 .f32) (main_arg5 : FVec F S4x256x256 .f32) (main_arg6 : FVec F S4x256 .f32) (main_arg7 : FVec F S4x256x1 .f32) (main_arg8 : FVec F S4x1 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x256 .f32 := Host.absf main_arg5
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_v33

def fn {F : FTy → Type} [FloatOps F] (main_arg0 : FVec F S4x25000x1296 .f32) (main_arg1 : FVec F S4x1296x256 .f32) (main_arg2 : FVec F S4x256 .f32) (main_arg3 : FVec F S4x256x256 .f32) (main_arg4 : FVec F S4x256 .f32) (main_arg5 : FVec F S4x256x256 .f32) (main_arg6 : FVec F S4x256 .f32) (main_arg7 : FVec F S4x256x1 .f32) (main_arg8 : FVec F S4x1 .f32) (main_arg9 : IVec S4x25000 32) : IVec S_ 1 :=
  let main_v0 : FVec F S4x25000x1296 .f32 := Host.absf main_arg0
  let main_cst : FVec F S_ .f32 := constant S_ .f32 0x7F800000#32
  let main_v1 : FVec F S4x25000x1296 .f32 := broadcastInDim S4x25000x1296 ![] bcast_S_S4x25000x1296 main_cst
  let main_v2 : IVec S4x25000x1296 1 := cmpf .olt main_v0 main_v1
  let main_c : IVec S_ 1 := constantI S_ 1 1#1
  let main_v3 : IVec S_ 1 := (fun x v => Host.reduce IntOp.andi x v reducesTo_S4x25000x1296_S_d0_1_2 h_S_) main_v2 main_c
  let main_v4 : FVec F S4x1296x256 .f32 := Host.absf main_arg1
  let main_cst_0 : FVec F S_ .f32 := constant S_ .f32 0x7F800000#32
  let main_v5 : FVec F S4x1296x256 .f32 := broadcastInDim S4x1296x256 ![] bcast_S_S4x1296x256 main_cst_0
  let main_v6 : IVec S4x1296x256 1 := cmpf .olt main_v4 main_v5
  let main_c_1 : IVec S_ 1 := constantI S_ 1 1#1
  let main_v7 : IVec S_ 1 := (fun x v => Host.reduce IntOp.andi x v reducesTo_S4x1296x256_S_d0_1_2 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_arg7 main_arg8 main_v13 main_v16
-- ==== Kernel.lean ====
abbrev S4x25000x1296 : Shape := ⟨3, ![4, 25000, 1296]⟩
abbrev S4x1296x256 : Shape := ⟨3, ![4, 1296, 256]⟩
abbrev S4x256 : Shape := ⟨2, ![4, 256]⟩
abbrev S4x256x256 : Shape := ⟨3, ![4, 256, 256]⟩
abbrev S4x256x1 : Shape := ⟨3, ![4, 256, 1]⟩
abbrev S4x1 : Shape := ⟨2, ![4, 1]⟩
abbrev S4x25000 : Shape := ⟨2, ![4, 25000]⟩
abbrev S4x25000x1 : Shape := ⟨3, ![4, 25000, 1]⟩
abbrev S4x1x256 : Shape := ⟨3, ![4, 1, 256]⟩
abbrev S4x1x1 : Shape := ⟨3, ![4, 1, 1]⟩
abbrev S4x1x1024 : Shape := ⟨3, ![4, 1, 1024]⟩
abbrev S1x1000x1296 : Shape := ⟨3, ![1, 1000, 1296]⟩
abbrev S1x1296x256 : Shape := ⟨3, ![1, 1296, 256]⟩
abbrev S1x1x256 : Shape := ⟨3, ![1, 1, 256]⟩
abbrev S1x256x256 : Shape := ⟨3, ![1, 256, 256]⟩
abbrev S1x256x1 : Shape := ⟨3, ![1, 256, 1]⟩
abbrev S1x1x1 : Shape := ⟨3, ![1, 1, 1]⟩
abbrev S1x1000x1 : Shape := ⟨3, ![1, 1000, 1]⟩
abbrev S1x1x1024 : Shape := ⟨3, ![1, 1, 1024]⟩
abbrev S1x1024 : Shape := ⟨2, ![1, 1024]⟩
abbrev S1000x1296 : Shape := ⟨2, ![1000, 1296]⟩
abbrev S1296x256 : Shape := ⟨2, ![1296, 256]⟩
abbrev S1000x256 : Shape := ⟨2, ![1000, 256]⟩
abbrev S1x256 : Shape := ⟨2, ![1, 256]⟩
abbrev S256x256 : Shape := ⟨2, ![256, 256]⟩
abbrev S256x1 : Shape := ⟨2, ![256, 1]⟩
abbrev S1000x1 : Shape := ⟨2, ![1000, 1]⟩
abbrev S1x1 : Shape := ⟨2, ![1, 1]⟩
abbrev S1000x1024 : Shape := ⟨2, ![1000, 1024]⟩
abbrev S1024 : Shape := ⟨1, ![1024]⟩
abbrev S_ : Shape := ⟨0, ![]⟩
abbrev S1000 : Shape := ⟨1, ![1000]⟩

abbrev nBuf : Space → Nat
  | .hbm => 19
  | .vmem => 15
  | .smem => 0
  | _ => 0

abbrev bufTy : (tb : Table) → Fin (tcTables nBuf tb) → BufTy
  | .hbm, ⟨0, _⟩ => ⟨S4x25000x1296, .f32⟩
  | .hbm, ⟨1, _⟩ => ⟨S4x1296x256, .f32⟩
  | .hbm, ⟨2, _⟩ => ⟨S4x256, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x1, .f32⟩
  | .hbm, ⟨8, _⟩ => ⟨S4x1, .f32⟩
  | .hbm, ⟨9, _⟩ => ⟨S4x25000, .i32⟩
  | .hbm, ⟨10, _⟩ => ⟨S4x25000x1, .i32⟩
  | .hbm, ⟨11, _⟩ => ⟨S4x1x256, .f32⟩
  | .hbm, ⟨12, _⟩ => ⟨S4x1x256, .f32⟩
  | .hbm, ⟨13, _⟩ => ⟨S4x1x256, .f32⟩
  | .hbm, ⟨14, _⟩ => ⟨S4x1x1, .f32⟩
  | .hbm, ⟨15, _⟩ => ⟨S4x1x1024, .f32⟩
  | .hbm, ⟨16, _⟩ => ⟨S_, .f32⟩
  | .hbm, ⟨17, _⟩ => ⟨S1024, .f32⟩
  | .hbm, ⟨18, _⟩ => ⟨S1000, .f32⟩
  | .local _ .vmem, ⟨0, _⟩ => ⟨S1x1000x1296, .f32⟩
  | .local _ .vmem, ⟨1, _⟩ => ⟨S1x1000x1296, .f32⟩
  | .local _ .vmem, ⟨2, _⟩ => ⟨S1x1296x256, .f32⟩
  | .local _ .vmem, ⟨3, _⟩ => ⟨S1x1x256, .f32⟩
  | .local _ .vmem, ⟨4, _⟩ => ⟨S1x256x256, .f32⟩
  | .local _ .vmem, ⟨5, _⟩ => ⟨S1x1x256, .f32⟩
  | .local _ .vmem, ⟨6, _⟩ => ⟨S1x256x256, .f32⟩
  | .local _ .vmem, ⟨7, _⟩ => ⟨S1x1x256, .f32⟩
  | .local _ .vmem, ⟨8, _⟩ => ⟨S1x256x1, .f32⟩
  | .local _ .vmem, ⟨9, _⟩ => ⟨S1x1x1, .f32⟩
  | .local _ .vmem, ⟨10, _⟩ => ⟨S1x1000x1, .i32⟩
  | .local _ .vmem, ⟨11, _⟩ => ⟨S1x1000x1, .i32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | _, _ => ⟨S4x25000x1296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v63 : BitVec 1 := Scalar.cmpi .eq arg1 c24_i32
  let v64 : BitVec 32 := Scalar.extui v63
  let c0_i32_40 : BitVec 32 := 0#32
  let v65 : BitVec 1 := Scalar.cmpi .ne v64 c0_i32_40
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1296x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S1x1000x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bcast_S4x25000_S4x25000x1_0_1 : S4x25000.BroadcastsInDim S4x25000x1 (![0, 1] : Fin 2 → Fin S4x25000x1.rank)
  bcast_S4x256_S4x1x256_0_2 : S4x256.BroadcastsInDim S4x1x256 (![0, 2] : Fin 2 → Fin S4x1x256.rank)
  bcast_S4x1_S4x1x1_0_2 : S4x1.BroadcastsInDim S4x1x1 (![0, 2] : Fin 2 → Fin S4x1x1.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1000x1296_S1x1000x1296_0_0_0 : ∀ a, (![0, 0, 0] : Fin 3 → Nat) a + S1x1000x1296.size a ≤ S1x1000x1296.size a
  h_S1x1000x1296 : 0 < S1x1000x1296.numel
  shapeCasts_S1x1000x1296_S1000x1296 : S1x1000x1296.ShapeCasts S1000x1296
  bitsLt_bf16_f32 : FTy.bits .bf16 < FTy.bits .f32
  inb_S1x1296x256_S1x1296x256_0_0_0 : ∀ a, (![0, 0, 0] : Fin 3 → Nat) a + S1x1296x256.size a ≤ S1x1296x256.size a
  h_S1x1296x256 : 0 < S1x1296x256.numel
  shapeCasts_S1x1296x256_S1296x256 : S1x1296x256.ShapeCasts S1296x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S1000x256 : S1x256.Broadcasts S1000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S1000x1 : S1x1.Broadcasts S1000x1
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  iota_S1000x1024_d1_w32 : S1000x1024.Iotas .tc 32 [1]
  broadcasts_S1000x1_S1000x1024 : S1000x1.Broadcasts S1000x1024
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  reducesTo_S4x1x1024_S1024_d0_1 : S4x1x1024.ReducesTo [0, 1] S1024
  h_S_ : 0 < S_.numel
  slices_S1024_S1000_0 : S1024.Slices ![0] S1000
  dot_S1000x1296_S1296x256_S1000x256_1_0_0_1_n_n_wf : DotDims.WF S1000x1296 S1296x256 S1000x256 [1] [0] [0] [1] [] []
  dot_S1000x256_S256x256_S1000x256_1_0_0_1_n_n_wf : DotDims.WF S1000x256 S256x256 S1000x256 [1] [0] [0] [1] [] []
  dot_S1000x256_S256x1_S1000x1_1_0_0_1_n_n_wf : DotDims.WF S1000x256 S256x1 S1000x1 [1] [0] [0] [1] [] []
  dot_S1000x1_S1000x1024_S1x1024_0_0_1_1_n_n_wf : DotDims.WF S1000x1 S1000x1024 S1x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x1296.size a ≤ S4x25000x1296.size a
  hwx0_0 : ∀ i : grid0.Coords, EltTy.bits .f32 = 32 ∨ (Rect.block (s := S4x25000x1296) S1x1000x1296.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1296x256.size a ≤ S4x1296x256.size a
  hwx0_1 : ∀ i : grid0.Coords, EltTy.bits .f32 = 32 ∨ (Rect.block (s := S4x1296x256) S1x1296x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x256.size a
  hwx0_2 : ∀ i : grid0.Coords, EltTy.bits .f32 = 32 ∨ (Rect.block (s := S4x1x256) S1x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S4x256x256.size a
  hwx0_3 : ∀ i : grid0.Coords, EltTy.bits .f32 = 32 ∨ (Rect.block (s := S4x256x256) S1x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S4x1x256.size a
  hwx0_4 : ∀ i : grid0.Coords, EltTy.bits .f32 = 32 ∨ (Rect.block (s := S4x1x256) S1x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S4x256x256.size a
  hwx0_5 : ∀ i : grid0.Coords, EltTy.bits .f32 = 32 ∨ (Rect.block (s := S4x256x256) S1x256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S4x1x256.size a
  hwx0_6 : ∀ i : grid0.Coords, EltTy.bits .f32 = 32 ∨ (Rect.block (s := S4x1x256) S1x1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256x1.size a ≤ S4x256x1.size a
  hwx0_7 : ∀ i : grid0.Coords, EltTy.bits .f32 = 32 ∨ (Rect.block (s := S4x256x1) S1x256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S4x1x1.size a
  hwx0_8 : ∀ i : grid0.Coords, EltTy.bits .f32 = 32 ∨ (Rect.block (s := S4x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1000x1.size a ≤ S4x25000x1.size a
  hwx0_9 : ∀ i : grid0.Coords, EltTy.bits .i32 = 32 ∨ (Rect.block (s := S4x25000x1) S1x1000x1.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024.size a ≤ S4x1x1024.size a
  hwx0_10 : ∀ i : grid0.Coords, EltTy.bits .f32 = 32 ∨ (Rect.block (s := S4x1x1024) S1x1x1024.size (cc0_transform_10 i) (hinb0_10 i)).WholeWords (EltTy.packing .f32)

variable [Facts₀]

def dot_S1000x1296_S1296x256_S1000x256_1_0_0_1_n_n : DotDims S1000x1296 S1296x256 S1000x256 where
  lhsContracting := [1]
  rhsContracting := [0]
  lhsNonContracting := [0]
  rhsNonContracting := [1]
  lhsBatch := []
  rhsBatch := []
  wf := dot_S1000x1296_S1296x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf
def dot_S1000x1_S1000x1024_S1x1024_0_0_1_1_n_n : DotDims S1000x1 S1000x1024 S1x1024 where
  lhsContracting := [0]
  rhsContracting := [0]
  lhsNonContracting := [1]
  rhsNonContracting := [1]
  lhsBatch := []
  rhsBatch := []
  wf := dot_S1000x1_S1000x1024_S1x1024_0_0_1_1_n_n_wf

abbrev win0_0 : Pipeline.Window sig grid0 :=
  Pipeline.Window.ofSpec (Memref.whole main_arg0) S1x1000x1296.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1296x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x1000x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x1x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x25000x1296 : Shape := ⟨3, ![4, 25000, 1296]⟩
abbrev S4x1296x256 : Shape := ⟨3, ![4, 1296, 256]⟩
abbrev S4x256 : Shape := ⟨2, ![4, 256]⟩
abbrev S4x256x256 : Shape := ⟨3, ![4, 256, 256]⟩
abbrev S4x256x1 : Shape := ⟨3, ![4, 256, 1]⟩
abbrev S4x1 : Shape := ⟨2, ![4, 1]⟩
abbrev S4x25000 : Shape := ⟨2, ![4, 25000]⟩
abbrev S4x25000x256 : Shape := ⟨3, ![4, 25000, 256]⟩
abbrev S4x1x256 : Shape := ⟨3, ![4, 1, 256]⟩
abbrev S_ : Shape := ⟨0, ![]⟩
abbrev S4x25000x1 : Shape := ⟨3, ![4, 25000, 1]⟩
abbrev S4x1x1 : Shape := ⟨3, ![4, 1, 1]⟩
abbrev S100000 : Shape := ⟨1, ![100000]⟩
abbrev S1000 : Shape := ⟨1, ![1000]⟩
abbrev S100000x1 : Shape := ⟨2, ![100000, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x25000x1296, .f32⟩
  | .hbm, ⟨1, _⟩ => ⟨S4x1296x256, .f32⟩
  | .hbm, ⟨2, _⟩ => ⟨S4x256, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x1, .f32⟩
  | .hbm, ⟨8, _⟩ => ⟨S4x1, .f32⟩
  | .hbm, ⟨9, _⟩ => ⟨S4x25000, .i32⟩
  | .hbm, ⟨10, _⟩ => ⟨S4x25000x256, .f32⟩
  | .hbm, ⟨11, _⟩ => ⟨S4x1x256, .f32⟩
  | .hbm, ⟨12, _⟩ => ⟨S4x25000x256, .f32⟩
  | .hbm, ⟨13, _⟩ => ⟨S4x25000x256, .f32⟩
  | .hbm, ⟨14, _⟩ => ⟨S4x25000x256, .f32⟩
  | .hbm, ⟨15, _⟩ => ⟨S4x25000x256, .f32⟩
  | .hbm, ⟨16, _⟩ => ⟨S_, .f32⟩
  | .hbm, ⟨17, _⟩ => ⟨S4x25000x256, .f32⟩
  | .hbm, ⟨18, _⟩ => ⟨S4x25000x256, .f32⟩
  | .hbm, ⟨19, _⟩ => ⟨S_, .f32⟩
  | .hbm, ⟨20, _⟩ => ⟨S4x25000x256, .f32⟩
  | .hbm, ⟨21, _⟩ => ⟨S4x25000x256, .f32⟩
  | .hbm, ⟨22, _⟩ => ⟨S4x25000x256, .f32⟩
  | .hbm, ⟨23, _⟩ => ⟨S4x25000x256, .f32⟩
  | .hbm, ⟨24, _⟩ => ⟨S4x1x256, .f32⟩
  | .hbm, ⟨25, _⟩ => ⟨S4x25000x256, .f32⟩
  | .hbm, ⟨26, _⟩ => ⟨S4x25000x256, .f32⟩
  | .hbm, ⟨27, _⟩ => ⟨S4x25000x256, .f32⟩
  | .hbm, ⟨28, _⟩ => ⟨S4x25000x256, .f32⟩
  | .hbm, ⟨29, _⟩ => ⟨S_, .f32⟩
  | .hbm, ⟨30, _⟩ => ⟨S4x25000x256, .f32⟩
  | .hbm, ⟨31, _⟩ => ⟨S4x25000x256, .f32⟩
  | .hbm, ⟨32, _⟩ => ⟨S_, .f32⟩
  | .hbm, ⟨33, _⟩ => ⟨S4x25000x256, .f32⟩
  | .hbm, ⟨34, _⟩ => ⟨S4x25000x256, .f32⟩
  | .hbm, ⟨35, _⟩ => ⟨S4x25000x256, .f32⟩
  | .hbm, ⟨36, _⟩ => ⟨S4x25000x256, .f32⟩
  | .hbm, ⟨37, _⟩ => ⟨S4x1x256, .f32⟩
  | .hbm, ⟨38, _⟩ => ⟨S4x25000x256, .f32⟩
  | .hbm, ⟨39, _⟩ => ⟨S4x25000x256, .f32⟩
  | .hbm, ⟨40, _⟩ => ⟨S4x25000x256, .f32⟩
  | .hbm, ⟨41, _⟩ => ⟨S4x25000x256, .f32⟩
  | .hbm, ⟨42, _⟩ => ⟨S_, .f32⟩
  | .hbm, ⟨43, _⟩ => ⟨S4x25000x256, .f32⟩
  | .hbm, ⟨44, _⟩ => ⟨S4x25000x256, .f32⟩
  | .hbm, ⟨45, _⟩ => ⟨S_, .f32⟩
  | .hbm, ⟨46, _⟩ => ⟨S4x25000x256, .f32⟩
  | .hbm, ⟨47, _⟩ => ⟨S4x25000x256, .f32⟩
  | .hbm, ⟨48, _⟩ => ⟨S4x25000x256, .f32⟩
  | .hbm, ⟨49, _⟩ => ⟨S4x25000x1, .f32⟩
  | .hbm, ⟨50, _⟩ => ⟨S4x1x1, .f32⟩
  | .hbm, ⟨51, _⟩ => ⟨S4x25000x1, .f32⟩
  | .hbm, ⟨52, _⟩ => ⟨S4x25000x1, .f32⟩
  | .hbm, ⟨53, _⟩ => ⟨S4x25000, .f32⟩
  | .hbm, ⟨54, _⟩ => ⟨S100000, .f32⟩
  | .hbm, ⟨55, _⟩ => ⟨S100000, .i32⟩
  | .hbm, ⟨56, _⟩ => ⟨S_, .f32⟩
  | .hbm, ⟨57, _⟩ => ⟨S1000, .f32⟩
  | .hbm, ⟨58, _⟩ => ⟨S100000x1, .i32⟩
  | .hbm, ⟨59, _⟩ => ⟨S1000, .f32⟩
  | _, _ => ⟨S4x25000x1296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩

abbrev nD : Nat := 1
abbrev τ : Topo := Topo.v7x

variable {F : FTy → Type} [FloatOps F]

class Facts₀ : Prop where
  bcast_S4x256_S4x1x256_0_2 : S4x256.BroadcastsInDim S4x1x256 (![0, 2] : Fin 2 → Fin S4x1x256.rank)
  bcast_S4x1x256_S4x25000x256_0_1_2 : S4x1x256.BroadcastsInDim S4x25000x256 (![0, 1, 2] : Fin 3 → Fin S4x25000x256.rank)
  bcast_S_S4x25000x256 : S_.BroadcastsInDim S4x25000x256 (![] : Fin 0 → Fin S4x25000x256.rank)
  bcast_S4x1_S4x1x1_0_2 : S4x1.BroadcastsInDim S4x1x1 (![0, 2] : Fin 2 → Fin S4x1x1.rank)
  bcast_S4x1x1_S4x25000x1_0_1_2 : S4x1x1.BroadcastsInDim S4x25000x1 (![0, 1, 2] : Fin 3 → Fin S4x25000x1.rank)
  shapeCasts_S4x25000x1_S4x25000 : S4x25000x1.ShapeCasts S4x25000
  shapeCasts_S4x25000_S100000 : S4x25000.ShapeCasts S100000
  bcast_S_S1000 : S_.BroadcastsInDim S1000 (![] : Fin 0 → Fin S1000.rank)
  bcast_S100000_S100000x1_0 : S100000.BroadcastsInDim S100000x1 (![0] : Fin 1 → Fin S100000x1.rank)
  dot_S4x25000x1296_S4x1296x256_S4x25000x256_2_1_1_2_0_0_wf : DotDims.WF S4x25000x1296 S4x1296x256 S4x25000x256 [2] [1] [1] [2] [0] [0]
  dot_S4x25000x256_S4x256x256_S4x25000x256_2_1_1_2_0_0_wf : DotDims.WF S4x25000x256 S4x256x256 S4x25000x256 [2] [1] [1] [2] [0] [0]
  dot_S4x25000x256_S4x256x1_S4x25000x1_2_1_1_2_0_0_wf : DotDims.WF S4x25000x256 S4x256x1 S4x25000x1 [2] [1] [1] [2] [0] [0]
  scatter_S1000_S100000x1_S100000_n_0_0_1_wf : ScatterDims.WF S1000 S100000x1 S100000 [] [0] [0] 1

variable [Facts₀]

def dot_S4x25000x1296_S4x1296x256_S4x25000x256_2_1_1_2_0_0 : DotDims S4x25000x1296 S4x1296x256 S4x25000x256 where
  lhsContracting := [2]
  rhsContracting := [1]
  lhsNonContracting := [1]
  rhsNonContracting := [2]
  lhsBatch := [0]
  rhsBatch := [0]
  wf := dot_S4x25000x1296_S4x1296x256_S4x25000x256_2_1_1_2_0_0_wf
def dot_S4x25000x256_S4x256x256_S4x25000x256_2_1_1_2_0_0 : DotDims S4x25000x256 S4x256x256 S4x25000x256 where
  lhsContracting := [2]
  rhsContracting := [1]
  lhsNonContracting := [1]
  rhsNonContracting := [2]
  lhsBatch := [0]
  rhsBatch := [0]
  wf := dot_S4x25000x256_S4x256x256_S4x25000x256_2_1_1_2_0_0_wf
def dot_S4x25000x256_S4x256x1_S4x25000x1_2_1_1_2_0_0 : DotDims S4x25000x256 S4x256x1 S4x25000x1 where
  lhsContracting := [2]
  rhsContracting := [1]
  lhsNonContracting := [1]
  rhsNonContracting := [2]
  lhsBatch := [0]
  rhsBatch := [0]
  wf := dot_S4x25000x256_S4x256x1_S4x25000x1_2_1_1_2_0_0_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

class Facts : Prop extends Facts₀ where

variable [Facts]
-- ==== Proof.Spec.lean ====
/-
  The mathematics of the routed energy sum, with no program in sight.

  An atom's ENERGY is a three-layer SiLU network of its feature row followed by a linear head, with the weights
  of the atom's species.  The result at structure `j` is the sum of the energies of the atoms whose structure id
  is `j`.  Two arrangements of that sum are stated here: the tiled one (per species, per tile of 1000 atoms, each
  atom's energy times the indicator that its id is `j`, the tiles accumulated, the species added at the end) and
  the flat one (the atoms of all species in one run of 100000, summed over those whose id, read as a signed
  integer, is `j`).  That the two agree is the one law of this certificate; it needs only that `x * 1 = x`,
  `x * 0 = 0` and that a sum over a finite type may be regrouped, all of which hold on the extended reals
  whatever is infinite.
-/
import Idealize.ShloMosaic.PureOps.Ideal
import Idealize.ShloMosaic.Lib.ValueIdx

noncomputable section

namespace Cert.Route

open Idealize.ShloMosaic Idealize.ShloMosaic.ValueIdx

/-- `x · σ(x)`, with `σ` the logistic function of the extended reals. -/
def silu (x : EReal) : EReal := x * Ideal.logistic x

/-- One dense layer at output coordinate `h`: `(x · W)_h + b_h`. -/
def dense {K H : Nat} (x : Fin K → EReal) (W : Fin K → Fin H → EReal) (b : Fin H → EReal) (h : Fin H) : EReal :=
  (∑ k : Fin K, x k * W k h) + b h

/-- The third layer's product BEFORE its bias, at hidden coordinate `h`: the first two layers with SiLU, then `· W2`. -/
def pre3 (x : Fin 1296 → EReal) (W0 : Fin 1296 → Fin 256 → EReal) (b0 : Fin 256 → EReal)
    (W1 : Fin 256 → Fin 256 → EReal) (b1 : Fin 256 → EReal) (W2 : Fin 256 → Fin 256 → EReal) (h : Fin 256) : EReal :=
  ∑ k : Fin 256, silu (dense (fun j => silu (dense x W0 b0 j)) W1 b1 k) * W2 k h

/-- The head: the third bias, SiLU, the output column and the output bias. -/
def head (p : Fin 256 → EReal) (b2 : Fin 256 → EReal) (Wo : Fin 256 → EReal) (bo : EReal) : EReal :=
  (∑ k : Fin 256, silu (p k + b2 k) * Wo k) + bo

/-- An atom's energy from its feature row and its species' weights. -/
def energy (x : Fin 1296 → EReal) (W0 : Fin 1296 → Fin 256 → EReal) (b0 : Fin 256 → EReal)
    (W1 : Fin 256 → Fin 256 → EReal) (b1 : Fin 256 → EReal) (W2 : Fin 256 → Fin 256 → EReal) (b2 : Fin 256 → EReal)
    (Wo : Fin 256 → EReal) (bo : EReal) : EReal :=
  head (pre3 x W0 b0 W1 b1 W2) b2 Wo bo

abbrev A3 (a b c : Nat) : Type := (⟨3, ![a, b, c]⟩ : Shape).Idx → EReal
abbrev A2 (a b : Nat) : Type := (⟨2, ![a, b]⟩ : Shape).Idx → EReal

/-- The energy of atom `n` of species `s`, from the ten argument arrays. -/
def E (feats : A3 4 25000 1296) (W0 : A3 4 1296 256) (b0 : A2 4 256) (W1 : A3 4 256 256) (b1 : A2 4 256)
    (W2 : A3 4 256 256) (b2 : A2 4 256) (Wout : A3 4 256 1) (bout : A2 4 1) (s : Fin 4) (n : Fin 25000) : EReal :=
  energy (fun d => feats (ix3 s n d)) (fun d h => W0 (ix3 s d h)) (fun h => b0 (ix2 s h))
    (fun d h => W1 (ix3 s d h)) (fun h => b1 (ix2 s h)) (fun d h => W2 (ix3 s d h)) (fun h => b2 (ix2 s h))
    (fun h => Wout (ix3 s h 0)) (bout (ix2 s 0))

/-- The structure ids as a function of species and atom. -/
def idsOf (a : (⟨2, ![4, 25000]⟩ : Shape).Idx → BitVec 32) (s : Fin 4) (n : Fin 25000) : BitVec 32 := a (ix2 s n)

/-- What grid point `t` (species `t / 25`, tile `t % 25`) adds at lane `l`: its 1000 atoms' energies, each times the
    indicator that the atom's id is the lane. (Total in `t`: the species is taken mod 4.) -/
def tilePart (e : Fin 4 → Fin 25000 → EReal) (ids : Fin 4 → Fin 25000 → BitVec 32) (t : Nat) (l : Fin 1024) : EReal :=
  ∑ r : Fin 1000,
    e ⟨t / 25 % 4, Nat.mod_lt _ (by decide)⟩ ⟨1000 * (t % 25) + r.val, by have := Nat.mod_lt t (show 0 < 25 by decide); have := r.isLt; omega⟩
      * (if ids ⟨t / 25 % 4, Nat.mod_lt _ (by decide)⟩ ⟨1000 * (t % 25) + r.val, by have := Nat.mod_lt t (show 0 < 25 by decide); have := r.isLt; omega⟩
            = BitVec.ofNat 32 l.val then (1 : EReal) else 0)

/-- The tiled arrangement: zero, plus over the species (zero plus the 25 tiles' parts). -/
def GK (e : Fin 4 → Fin 25000 → EReal) (ids : Fin 4 → Fin 25000 → BitVec 32) (j : Fin 1000) : EReal :=
  0 + ∑ s : Fin 4, (0 + ∑ i ∈ Finset.range 25, tilePart e ids (25 * s.val + i) ⟨j.val, by have := j.isLt; omega⟩)

/-- The flat arrangement: zero, plus the energies of the atoms (species-major, 100000 of them) whose id, read signed, is `j`. -/
def GR (e : Fin 4 → Fin 25000 → EReal) (ids : Fin 4 → Fin 25000 → BitVec 32) (j : Fin 1000) : EReal :=
  0 + ∑ q ∈ Finset.univ.filter (fun q : Fin 100000 =>
        (ids ⟨q.val / 25000, by have := q.isLt; omega⟩ ⟨q.val % 25000, Nat.mod_lt _ (by decide)⟩).toInt = (j.val : Int)),
      e ⟨q.val / 25000, by have := q.isLt; omega⟩ ⟨q.val % 25000, Nat.mod_lt _ (by decide)⟩

end Cert.Route

end
-- ==== Proof.Law.lean ====
/-
  The one law of the certificate: the tiled arrangement of the routed energy sum is the flat one.
-/
import proofs.«413766_j75771813036181_3_alg».proof.Proof.Spec

noncomputable section

namespace Cert.Route

open Idealize.ShloMosaic

/-- The flat summand: the atom's energy when its id, read signed, is `j`, and zero otherwise. -/
private def term (e : Fin 4 → Fin 25000 → EReal) (ids : Fin 4 → Fin 25000 → BitVec 32) (j : Fin 1000)
    (s : Fin 4) (n : Fin 25000) : EReal :=
  if (ids s n).toInt = (j.val : Int) then e s n else 0

/-- For `j < 1000` a 32-bit word is the word of `j` exactly when its signed reading is `j`
    (both say that its unsigned reading is `j`, since `j < 2^31`). -/
private theorem word_eq_iff (w : BitVec 32) (j : Nat) (hj : j < 1000) :
    w = BitVec.ofNat 32 j ↔ w.toInt = (j : Int) := by
  have hw : w.toNat < 2 ^ 32 := w.isLt
  constructor
  · intro h
    have hn : w.toNat = j := by
      rw [h, BitVec.toNat_ofNat]
      exact Nat.mod_eq_of_lt (by omega)
    rw [BitVec.toInt_eq_toNat_cond]
    split <;> omega
  · intro h
    apply BitVec.eq_of_toNat_eq
    rw [BitVec.toNat_ofNat, Nat.mod_eq_of_lt (by omega : j < 2 ^ 32)]
    rw [BitVec.toInt_eq_toNat_cond] at h
    split at h <;> omega

/-- The flat summand at equal indices. -/
private theorem term_congr (e : Fin 4 → Fin 25000 → EReal) (ids : Fin 4 → Fin 25000 → BitVec 32) (j : Fin 1000)
    (s s' : Fin 4) (n n' : Fin 25000) (hs : s = s') (hn : n = n') :
    term e ids j s n = term e ids j s' n' := by
  subst hs hn
  rfl

/-- Energy times the indicator of the word of `j` is the flat summand: `x * 1 = x` and `x * 0 = 0`. -/
private theorem mul_ind (e : Fin 4 → Fin 25000 → EReal) (ids : Fin 4 → Fin 25000 → BitVec 32) (j : Fin 1000)
    (s s' : Fin 4) (n n' : Fin 25000) (hs : s' = s) (hn : n' = n) :
    e s' n' * (if ids s' n' = BitVec.ofNat 32 j.val then (1 : EReal) else 0) = term e ids j s n := by
  subst hs hn
  unfold term
  by_cases h : ids s' n' = BitVec.ofNat 32 j.val
  · rw [if_pos h, if_pos ((word_eq_iff _ _ j.isLt).1 h), mul_one]
  · rw [if_neg h, if_neg (fun h' => h ((word_eq_iff _ _ j.isLt).2 h')), mul_zero]

/-- The part of tile `i` of species `s`, with its indices simplified. -/
private theorem tilePart_eq (e : Fin 4 → Fin 25000 → EReal) (ids : Fin 4 → Fin 25000 → BitVec 32) (j : Fin 1000)
    (s : Fin 4) (i : Nat) (hi : i < 25) :
    tilePart e ids (25 * s.val + i) ⟨j.val, by have := j.isLt; omega⟩
      = ∑ r : Fin 1000, term e ids j s ⟨1000 * i + r.val, by have := r.isLt; omega⟩ := by
  unfold tilePart
  refine Finset.sum_congr rfl (fun r _ => ?_)
  have hs := s.isLt
  exact mul_ind e ids j s _ _ _ (Fin.ext (by show (25 * s.val + i) / 25 % 4 = s.val; omega))
    (Fin.ext (by show 1000 * ((25 * s.val + i) % 25) + r.val = 1000 * i + r.val; omega))

/-- Species, tile and place in the tile against the place in the run of 100000. -/
private def flat : Fin 4 × Fin 25 × Fin 1000 ≃ Fin 100000 where
  toFun x := ⟨25000 * x.1.val + 1000 * x.2.1.val + x.2.2.val, by
    have := x.1.isLt; have := x.2.1.isLt; have := x.2.2.isLt; omega⟩
  invFun q := (⟨q.val / 25000, by have := q.isLt; omega⟩, ⟨q.val % 25000 / 1000, by omega⟩,
    ⟨q.val % 1000, Nat.mod_lt _ (by decide)⟩)
  left_inv x := by
    obtain ⟨s, i, r⟩ := x
    have := s.isLt; have := i.isLt; have := r.isLt
    refine Prod.ext (Fin.ext ?_) (Prod.ext (Fin.ext ?_) (Fin.ext ?_))
    · show (25000 * s.val + 1000 * i.val + r.val) / 25000 = s.val; omega
    · show (25000 * s.val + 1000 * i.val + r.val) % 25000 / 1000 = i.val; omega
    · show (25000 * s.val + 1000 * i.val + r.val) % 1000 = r.val; omega
  right_inv q := by
    apply Fin.ext
    show 25000 * (q.val / 25000) + 1000 * (q.val % 25000 / 1000) + q.val % 1000 = q.val
    omega

theorem GK_eq_GR (e : Fin 4 → Fin 25000 → EReal) (ids : Fin 4 → Fin 25000 → BitVec 32) (j : Fin 1000) :
    GK e ids j = GR e ids j := by
  have hK : GK e ids j = ∑ s : Fin 4, ∑ i : Fin 25, ∑ r : Fin 1000,
      term e ids j s ⟨1000 * i.val + r.val, by have := i.isLt; have := r.isLt; omega⟩ := by
    unfold GK
    rw [zero_add]
    refine Finset.sum_congr rfl (fun s _ => ?_)
    rw [zero_add, Finset.sum_range]
    exact Finset.sum_congr rfl (fun i _ => tilePart_eq e ids j s i.val i.isLt)
  have hR : GR e ids j = ∑ q : Fin 100000,
      term e ids j ⟨q.val / 25000, by have := q.isLt; omega⟩ ⟨q.val % 25000, Nat.mod_lt _ (by decide)⟩ := by
    unfold GR term
    rw [zero_add, Finset.sum_filter]
  rw [hK, hR]
  have hF : ∀ x : Fin 4 × Fin 25 × Fin 1000,
      term e ids j x.1 ⟨1000 * x.2.1.val + x.2.2.val, by have := x.2.1.isLt; have := x.2.2.isLt; omega⟩
        = term e ids j ⟨(flat x).val / 25000, by have := (flat x).isLt; omega⟩
            ⟨(flat x).val % 25000, Nat.mod_lt _ (by decide)⟩ := by
    intro x
    obtain ⟨s, i, r⟩ := x
    have := s.isLt; have := i.isLt; have := r.isLt
    refine term_congr e ids j _ _ _ _ (Fin.ext ?_) (Fin.ext ?_)
    · show s.val = (25000 * s.val + 1000 * i.val + r.val) / 25000; omega
    · show 1000 * i.val + r.val = (25000 * s.val + 1000 * i.val + r.val) % 25000; omega
  rw [← Fintype.sum_equiv flat _ _ hF]
  simp only [Fintype.sum_prod_type]

end Cert.Route

end
-- ==== Proof.RefScatter.lean ====
/-
  The host's accumulating scatter of this program, read at an entry: updates are a run of 100000 values, each with a
  one-word start index; the window is empty, so update `q` lands at the entry its index names when that index,
  read as a signed integer, lies inside the 1000 entries, and is dropped otherwise.  At the extended reals the
  result at entry `j` is the operand there plus the sum of the updates whose index reads `j`.
-/
import proofs.«413766_j75771813036181_3_alg».proof.Proof.Gen.ReferenceIdeal
import Idealize.ShloMosaic.PureOps.Ideal
import Idealize.ShloMosaic.Lib.ValueIdx

noncomputable section

namespace Cert.ReferenceIdeal.RefScatter

open Cert.ReferenceIdeal Cert.ReferenceIdeal.Gen Idealize.ShloMosaic Idealize.ShloMosaic.TcCoe Idealize.ShloMosaic.ValueIdx

/-- The operand's one axis is named by the map from start-index components to operand axes. -/
theorem mem_sdto : (0 : Fin S1000.rank) ∈ scatter_S1000_S100000x1_S100000_n_0_0_1.scatterDimsToOperandDims := by
  decide

/-- The operand's one axis is an inserted window axis: no operand axis is kept for the window. -/
theorem not_mem_sKept : (0 : Fin S1000.rank) ∉ scatter_S1000_S100000x1_S100000_n_0_0_1.sKept := by
  decide

/-- The operand has one axis. -/
theorem axis_eq_zero (a : Fin S1000.rank) : a = 0 := Subsingleton.elim _ _

/-- Update `u` reads its start index at row `u 0` of the index array: the row axis carries the update's one
    coordinate, the index-vector axis (of extent one) carries the component's number, which is `0`. -/
theorem siIdx_eq (u : S100000.Idx) (c : Fin scatter_S1000_S100000x1_S100000_n_0_0_1.scatterDimsToOperandDims.length) :
    scatter_S1000_S100000x1_S100000_n_0_0_1.siIdx u c = ix2 (u 0) 0 := by
  funext b
  match b with
  | ⟨0, h0⟩ =>
    apply Fin.ext
    simp only [ScatterDims.siIdx]
    rw [dif_neg (by decide)]
    simp only [ScatterDims.siCoord, Fin.coe_cast]
    -- the updates have one axis, so whichever axis the lookup names is axis `0`
    exact congrArg (fun a => (u a).val) (Subsingleton.elim _ _)
  | ⟨1, h1⟩ =>
    -- the index-vector axis has extent one
    exact Subsingleton.elim (α := Fin 1) _ _

/-- The window's start on the operand's axis is the update's index word read signed. -/
theorem start_eq {w : Nat} (u : S100000.Idx) (idx : IVec S100000x1 w) (a : Fin S1000.rank) :
    scatter_S1000_S100000x1_S100000_n_0_0_1.start u idx a = (idx (ix2 (u 0) 0)).toInt := by
  obtain rfl := axis_eq_zero a
  unfold ScatterDims.start
  rw [dif_pos mem_sdto, siIdx_eq]
  rfl

/-- The window coordinate on the operand's axis is `0`: the axis is inserted. -/
theorem window_eq (u : S100000.Idx) (a : Fin S1000.rank) :
    scatter_S1000_S100000x1_S100000_n_0_0_1.window u a = 0 := by
  obtain rfl := axis_eq_zero a
  unfold ScatterDims.window
  rw [dif_neg not_mem_sKept]

/-- Update `u` lands at entry `j` exactly when its index word, read signed, is `j`: inside `[0, 1000)` the
    landing entry is the index itself, outside it the update is dropped (and `j` is inside). -/
theorem resultIdx_iff {w : Nat} (u : S100000.Idx) (idx : IVec S100000x1 w) (j : Fin 1000) :
    scatter_S1000_S100000x1_S100000_n_0_0_1.resultIdx? u idx = some (ix1 j)
      ↔ (idx (ix2 (u 0) 0)).toInt = (j.val : Int) := by
  unfold ScatterDims.resultIdx?
  simp only [start_eq, window_eq]
  split
  · rename_i h
    have h0 := h 0
    simp only [Matrix.cons_val_zero, Nat.cast_zero, add_zero, Nat.cast_ofNat] at h0
    constructor
    · intro he
      have h1 := congrArg (fun f => (f 0).val) (Option.some.inj he)
      simp only [Nat.cast_zero, add_zero] at h1
      change _ = j.val at h1
      omega
    · intro he
      congr 1
      funext a
      obtain rfl := Fin.fin_one_eq_zero a
      apply Fin.ext
      simp only [Nat.cast_zero, add_zero]
      change _ = j.val
      omega
  · rename_i h
    constructor
    · intro he
      cases he
    · intro he
      exfalso
      apply h
      intro a
      obtain rfl := Fin.fin_one_eq_zero a
      simp only [Matrix.cons_val_zero, Nat.cast_zero, add_zero, Nat.cast_ofNat]
      omega

/-- An index of the run of updates is its one coordinate. -/
def idxEquiv1 : S100000.Idx ≃ Fin 100000 where
  toFun u := u 0
  invFun q := ix1 q
  left_inv u := (eq_ix1 u).symm
  right_inv _ := rfl

theorem scatterAdd_apply (x : FVec Ideal S1000 .f32) (idx : IVec S100000x1 32) (upd : FVec Ideal S100000 .f32) (j : Fin 1000) :
    Host.scatterAdd (F := Ideal) (φ := .f32) scatter_S1000_S100000x1_S100000_n_0_0_1 x idx upd (ix1 j)
      = x (ix1 j) + ∑ q ∈ Finset.univ.filter (fun q : Fin 100000 => (idx (ix2 q 0)).toInt = (j.val : Int)), upd (ix1 q) := by
  -- at the extended reals the scatter is the operand plus the sum of the updates landing on the entry
  show Ideal.hostScatterAdd scatter_S1000_S100000x1_S100000_n_0_0_1 x idx upd (ix1 j) = _
  unfold Ideal.hostScatterAdd
  refine congrArg (x (ix1 j) + ·) ?_
  -- re-index the sum by the updates' one coordinate; the landing condition is the decoded one
  refine Finset.sum_equiv idxEquiv1 (fun u => ?_) (fun u _ => congrArg upd (eq_ix1 u))
  simp only [Finset.mem_filter, Finset.mem_univ, true_and]
  exact resultIdx_iff u idx j

end Cert.ReferenceIdeal.RefScatter

end
-- ==== Proof.RefEnergy.lean ====
/-
  The reference's stages before its scatter, read at an index of the flat run of 100000 atoms: the flattened
  energies at place `q` are the energy of atom `q % 25000` of species `q / 25000` (the three batched contractions
  as sums over the contracted coordinate, the biases broadcast along the atoms, SiLU spelt
  `x · (1 / (1 + e^(-x)))`, the two reshapes row-major), the index words at place `q` are that atom's id, and the
  scatter's operand is zero everywhere.
-/
import proofs.«413766_j75771813036181_3_alg».proof.Proof.Gen.ReferenceIdeal.Run
import proofs.«413766_j75771813036181_3_alg».proof.Proof.Gen.ReferenceIdeal.Read
import proofs.«413766_j75771813036181_3_alg».proof.Proof.Spec

noncomputable section

namespace Cert.ReferenceIdeal.RefEnergy

open Cert.ReferenceIdeal Cert.ReferenceIdeal.Gen Idealize.ShloMosaic Idealize.ShloMosaic.TcCoe Idealize.ShloMosaic.ValueIdx

open Cert.ReferenceIdeal.Read

/-- The word `0x3F800000` encodes one. -/
theorem one_word : Ideal.ofBits .f32 0x3F800000#32 = 1 := IdealRules.sign_bit.ideal_onePat .f32

/-- `x · (1 / (1 + e^(-x)))`, both ones read from their words, is `x · σ(x)`. -/
theorem silu_spelt (x : EReal) :
    x * Ideal.div (Ideal.ofBits .f32 0x3F800000#32) (Ideal.ofBits .f32 0x3F800000#32 + Ideal.exp (-x)) = Cert.Route.silu x := by
  rw [one_word]; rfl

/-- The same with the arithmetic still in the float operations of the extended reals. -/
theorem silu_ops (x : Ideal .f32) :
    FloatOps.mulf x (FloatOps.hostDivf (FloatOps.ofBits (F := Ideal) .f32 0x3F800000#32)
        (FloatOps.addf (FloatOps.ofBits (F := Ideal) .f32 0x3F800000#32) (FloatOps.hostUnary .exp (FloatOps.hostNegf x))))
      = Cert.Route.silu x := silu_spelt x

/-! ## The first layer -/

/-- The first contraction plus its bias, at atom `n` of species `s` and hidden coordinate `j`. -/
theorem v3_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal))
    (s : Fin 4) (n : Fin 25000) (j : Fin 256) :
    val_main_v3 (F := Ideal) x0 x1 x2 (ix3 s n j) = Cert.Route.dense (fun d => x0 (ix3 s n d)) (fun d h => x1 (ix3 s d h)) (fun h => x2 (ix2 s h)) j := by
  have el : ∀ k : Fin 1296, lidx_main_v0 (ix3 s n j) k = ix3 s n k := fun k => funext fun a => by
    match a with | ⟨0, _⟩ => rfl | ⟨1, _⟩ => rfl | ⟨2, _⟩ => rfl
  have er : ∀ k : Fin 1296, ridx_main_v0 (ix3 s n j) k = ix3 s k j := fun k => funext fun a => by
    match a with | ⟨0, _⟩ => rfl | ⟨1, _⟩ => rfl | ⟨2, _⟩ => rfl
  have eb : idx_main_v1 (idx_main_v2 (ix3 s n j)) = ix2 s j := funext fun a => by
    match a with | ⟨0, _⟩ => rfl | ⟨1, _⟩ => rfl
  rw [val_main_v3_apply, val_main_v0_apply, val_main_v2_apply, val_main_v1_apply, eb]
  rw [Cert.Route.dense]
  refine congrArg (· + x2 (ix2 s j)) (Finset.sum_congr rfl fun k _ => ?_)
  rw [el k, er k]

/-- The first layer after its SiLU. -/
theorem v4_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal))
    (s : Fin 4) (n : Fin 25000) (j : Fin 256) :
    val_main_v4 (F := Ideal) x0 x1 x2 (ix3 s n j) = Cert.Route.silu (Cert.Route.dense (fun d => x0 (ix3 s n d)) (fun d h => x1 (ix3 s d h)) (fun h => x2 (ix2 s h)) j) := by
  rw [val_main_v4_apply, val_main_call0_v5_apply, val_main_call0_v4_apply, val_main_call0_cst_0_apply, val_main_call0_v3_apply,
    val_main_call0_v2_apply, val_main_call0_cst_apply, val_main_call0_v1_apply, val_main_call0_v0_apply, v3_at]
  exact silu_ops _

/-! ## The second layer -/

/-- The second contraction plus its bias. -/
theorem v8_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal))
    (s : Fin 4) (n : Fin 25000) (j : Fin 256) :
    val_main_v8 (F := Ideal) x0 x1 x2 x3 x4 (ix3 s n j) = Cert.Route.dense (fun j => Cert.Route.silu (Cert.Route.dense (fun d => x0 (ix3 s n d)) (fun d h => x1 (ix3 s d h)) (fun h => x2 (ix2 s h)) j)) (fun d h => x3 (ix3 s d h)) (fun h => x4 (ix2 s h)) j := by
  have el : ∀ k : Fin 256, lidx_main_v5 (ix3 s n j) k = ix3 s n k := fun k => funext fun a => by
    match a with | ⟨0, _⟩ => rfl | ⟨1, _⟩ => rfl | ⟨2, _⟩ => rfl
  have er : ∀ k : Fin 256, ridx_main_v5 (ix3 s n j) k = ix3 s k j := fun k => funext fun a => by
    match a with | ⟨0, _⟩ => rfl | ⟨1, _⟩ => rfl | ⟨2, _⟩ => rfl
  have eb : idx_main_v6 (idx_main_v7 (ix3 s n j)) = ix2 s j := funext fun a => by
    match a with | ⟨0, _⟩ => rfl | ⟨1, _⟩ => rfl
  rw [val_main_v8_apply, val_main_v5_apply, val_main_v7_apply, val_main_v6_apply, eb]
  rw [Cert.Route.dense]
  refine congrArg (· + x4 (ix2 s j)) (Finset.sum_congr rfl fun k _ => ?_)
  rw [el k, er k, v4_at]

/-- The second layer after its SiLU. -/
theorem v9_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal))
    (s : Fin 4) (n : Fin 25000) (j : Fin 256) :
    val_main_v9 (F := Ideal) x0 x1 x2 x3 x4 (ix3 s n j) = Cert.Route.silu (Cert.Route.dense (fun j => Cert.Route.silu (Cert.Route.dense (fun d => x0 (ix3 s n d)) (fun d h => x1 (ix3 s d h)) (fun h => x2 (ix2 s h)) j)) (fun d h => x3 (ix3 s d h)) (fun h => x4 (ix2 s h)) j) := by
  rw [val_main_v9_apply, val_main_call1_v5_apply, val_main_call1_v4_apply, val_main_call1_cst_0_apply, val_main_call1_v3_apply,
    val_main_call1_v2_apply, val_main_call1_cst_apply, val_main_call1_v1_apply, val_main_call1_v0_apply, v8_at]
  exact silu_ops _

/-! ## The third layer and the head -/

/-- The third contraction, before its bias. -/
theorem v10_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal)) (x5 : (⟨S4x256x256, .f32⟩ : BufTy).Contents (Elt Ideal))
    (s : Fin 4) (n : Fin 25000) (j : Fin 256) :
    val_main_v10 (F := Ideal) x0 x1 x2 x3 x4 x5 (ix3 s n j) = Cert.Route.pre3 (fun d => x0 (ix3 s n d)) (fun d h => x1 (ix3 s d h)) (fun h => x2 (ix2 s h)) (fun d h => x3 (ix3 s d h)) (fun h => x4 (ix2 s h)) (fun d h => x5 (ix3 s d h)) j := by
  have el : ∀ k : Fin 256, lidx_main_v10 (ix3 s n j) k = ix3 s n k := fun k => funext fun a => by
    match a with | ⟨0, _⟩ => rfl | ⟨1, _⟩ => rfl | ⟨2, _⟩ => rfl
  have er : ∀ k : Fin 256, ridx_main_v10 (ix3 s n j) k = ix3 s k j := fun k => funext fun a => by
    match a with | ⟨0, _⟩ => rfl | ⟨1, _⟩ => rfl | ⟨2, _⟩ => rfl
  rw [val_main_v10_apply]
  unfold Cert.Route.pre3
  refine Finset.sum_congr rfl fun k _ => ?_
  rw [el k, er k, v9_at]

/-- The third layer after its bias and SiLU. -/
theorem v14_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal)) (x5 : (⟨S4x256x256, .f32⟩ : BufTy).Contents (Elt Ideal))
    (x6 : (⟨S4x256, .f32⟩ : BufTy).Contents (Elt Ideal))
    (s : Fin 4) (n : Fin 25000) (j : Fin 256) :
    val_main_v14 (F := Ideal) x0 x1 x2 x3 x4 x5 x6 (ix3 s n j)
      = Cert.Route.silu (Cert.Route.pre3 (fun d => x0 (ix3 s n d)) (fun d h => x1 (ix3 s d h)) (fun h => x2 (ix2 s h)) (fun d h => x3 (ix3 s d h)) (fun h => x4 (ix2 s h)) (fun d h => x5 (ix3 s d h)) j + x6 (ix2 s j)) := by
  have eb : idx_main_v11 (idx_main_v12 (ix3 s n j)) = ix2 s j := funext fun a => by
    match a with | ⟨0, _⟩ => rfl | ⟨1, _⟩ => rfl
  have h13 : val_main_v13 (F := Ideal) x0 x1 x2 x3 x4 x5 x6 (ix3 s n j)
      = Cert.Route.pre3 (fun d => x0 (ix3 s n d)) (fun d h => x1 (ix3 s d h)) (fun h => x2 (ix2 s h)) (fun d h => x3 (ix3 s d h)) (fun h => x4 (ix2 s h)) (fun d h => x5 (ix3 s d h)) j + x6 (ix2 s j) := by
    rw [val_main_v13_apply, val_main_v12_apply, val_main_v11_apply, eb, v10_at]
    rfl
  rw [val_main_v14_apply, val_main_call2_v5_apply, val_main_call2_v4_apply, val_main_call2_cst_0_apply, val_main_call2_v3_apply,
    val_main_call2_v2_apply, val_main_call2_cst_apply, val_main_call2_v1_apply, val_main_call2_v0_apply, h13]
  exact silu_ops _

/-- The head: the output column's contraction plus the output bias is the atom's energy. -/
theorem v18_at
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal)) (x5 : (⟨S4x256x256, .f32⟩ : BufTy).Contents (Elt Ideal))
    (x6 : (⟨S4x256, .f32⟩ : BufTy).Contents (Elt Ideal)) (x7 : (⟨S4x256x1, .f32⟩ : BufTy).Contents (Elt Ideal))
    (x8 : (⟨S4x1, .f32⟩ : BufTy).Contents (Elt Ideal))
    (s : Fin 4) (n : Fin 25000) :
    val_main_v18 (F := Ideal) x0 x1 x2 x3 x4 x5 x6 x7 x8 (ix3 s n 0) = Cert.Route.E x0 x1 x2 x3 x4 x5 x6 x7 x8 s n := by
  have el : ∀ k : Fin 256, lidx_main_v15 (ix3 s n (0 : Fin 1)) k = ix3 s n k := fun k => funext fun a => by
    match a with | ⟨0, _⟩ => rfl | ⟨1, _⟩ => rfl | ⟨2, _⟩ => rfl
  have er : ∀ k : Fin 256, ridx_main_v15 (ix3 s n (0 : Fin 1)) k = ix3 s k 0 := fun k => funext fun a => by
    match a with | ⟨0, _⟩ => rfl | ⟨1, _⟩ => rfl | ⟨2, _⟩ => rfl
  have eb : idx_main_v16 (idx_main_v17 (ix3 s n (0 : Fin 1))) = ix2 s 0 := funext fun a => by
    match a with | ⟨0, _⟩ => rfl | ⟨1, _⟩ => rfl
  rw [val_main_v18_apply, val_main_v15_apply, val_main_v17_apply, val_main_v16_apply, eb]
  unfold Cert.Route.E Cert.Route.energy Cert.Route.head
  refine congrArg (· + x8 (ix2 s 0)) (Finset.sum_congr rfl fun k _ => ?_)
  rw [el k, er k, v14_at]

/-- The flattened energies at place `q`. -/
theorem energy_apply (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal)) (x5 : (⟨S4x256x256, .f32⟩ : BufTy).Contents (Elt Ideal))
    (x6 : (⟨S4x256, .f32⟩ : BufTy).Contents (Elt Ideal)) (x7 : (⟨S4x256x1, .f32⟩ : BufTy).Contents (Elt Ideal))
    (x8 : (⟨S4x1, .f32⟩ : BufTy).Contents (Elt Ideal)) (q : Fin 100000) :
    Cert.ReferenceIdeal.Read.val_main_v20 (F := Ideal) x0 x1 x2 x3 x4 x5 x6 x7 x8 (ix1 q)
      = Cert.Route.E x0 x1 x2 x3 x4 x5 x6 x7 x8 ⟨q.val / 25000, by have := q.isLt; omega⟩ ⟨q.val % 25000, Nat.mod_lt _ (by decide)⟩ := by
  have e : idx_main_v19 (idx_main_v20 (ix1 q))
      = ix3 (⟨q.val / 25000, by have := q.isLt; omega⟩ : Fin 4) (⟨q.val % 25000, Nat.mod_lt _ (by decide)⟩ : Fin 25000) (0 : Fin 1) :=
    funext fun a => by
      match a with
      | ⟨0, _⟩ => exact Fin.ext (by show (q.val / 25000 * 25000 + q.val % 25000) / 25000 = q.val / 25000; omega)
      | ⟨1, _⟩ => exact Fin.ext (by show (q.val / 25000 * 25000 + q.val % 25000) / 1 % 25000 = q.val % 25000; omega)
      | ⟨2, _⟩ => rfl
  rw [val_main_v20_apply, val_main_v19_apply, e, v18_at]

/-- The index words at place `q`. -/
theorem ids_apply (x9 : (⟨S4x25000, .i32⟩ : BufTy).Contents (Elt Ideal)) (q : Fin 100000) :
    Cert.ReferenceIdeal.Read.val_main_v23 (F := Ideal) x9 (ix2 q 0)
      = Cert.Route.idsOf x9 ⟨q.val / 25000, by have := q.isLt; omega⟩ ⟨q.val % 25000, Nat.mod_lt _ (by decide)⟩ := by
  rw [val_main_v23_apply, val_main_v21_apply]
  unfold Cert.Route.idsOf
  refine congrArg x9 (funext fun a => ?_)
  match a with
  | ⟨0, _⟩ => rfl
  | ⟨1, _⟩ => rfl

/-- The scatter's operand is zero. -/
theorem init_apply (j : Fin 1000) : Cert.ReferenceIdeal.Read.val_main_v22 (F := Ideal) (ix1 j) = 0 := by
  rw [val_main_v22_apply, val_main_cst_apply]
  exact Ideal.ofBits_zero_f32

end Cert.ReferenceIdeal.RefEnergy

end
-- ==== Proof.RefValue.lean ====
/-
  The reference's result, read index by index, is the flat arrangement of the routed energy sum: each atom's
  energy is the three SiLU layers and the head of its feature row with its species' weights (the batched
  contractions read as sums over the contracted coordinate, the biases broadcast along the atoms, SiLU written
  as `x · (1 / (1 + e^(-x)))`, which is `x · logistic x`), the energies and the structure ids are flattened
  species-major to one run of 100000, and the accumulating scatter adds, to a zero, each energy at the entry its
  id names when that id, read as a signed integer, lies in `[0, 1000)`, and drops it otherwise.
-/
import proofs.«413766_j75771813036181_3_alg».proof.Proof.Gen.ReferenceIdeal.Run
import proofs.«413766_j75771813036181_3_alg».proof.Proof.Gen.ReferenceIdeal.Read
import proofs.«413766_j75771813036181_3_alg».proof.Proof.Spec
import proofs.«413766_j75771813036181_3_alg».proof.Proof.RefScatter
import proofs.«413766_j75771813036181_3_alg».proof.Proof.RefEnergy

noncomputable section

namespace Cert.ReferenceIdeal.RefValue

open Cert.ReferenceIdeal Cert.ReferenceIdeal.Gen Idealize.ShloMosaic Idealize.ShloMosaic.TcCoe Idealize.ShloMosaic.ValueIdx

/-- The last stage of the reference, at `Ideal`, is the flat arrangement over the energies and ids of the arguments. -/
theorem result_eq
    (x0 : (⟨S4x25000x1296, .f32⟩ : BufTy).Contents (Elt Ideal)) (x1 : (⟨S4x1296x256, .f32⟩ : BufTy).Contents (Elt Ideal))
    (x2 : (⟨S4x256, .f32⟩ : BufTy).Contents (Elt Ideal)) (x3 : (⟨S4x256x256, .f32⟩ : BufTy).Contents (Elt Ideal))
    (x4 : (⟨S4x256, .f32⟩ : BufTy).Contents (Elt Ideal)) (x5 : (⟨S4x256x256, .f32⟩ : BufTy).Contents (Elt Ideal))
    (x6 : (⟨S4x256, .f32⟩ : BufTy).Contents (Elt Ideal)) (x7 : (⟨S4x256x1, .f32⟩ : BufTy).Contents (Elt Ideal))
    (x8 : (⟨S4x1, .f32⟩ : BufTy).Contents (Elt Ideal)) (x9 : (⟨S4x25000, .i32⟩ : BufTy).Contents (Elt Ideal)) :
    Cert.ReferenceIdeal.Read.val_main_v24 (F := Ideal) x0 x1 x2 x3 x4 x5 x6 x7 x8 x9
      = fun j => Cert.Route.GR (Cert.Route.E x0 x1 x2 x3 x4 x5 x6 x7 x8) (Cert.Route.idsOf x9) (j 0) := by
  funext j
  obtain ⟨q, rfl⟩ : ∃ q : Fin 1000, j = ix1 q := ⟨j 0, eq_ix1 j⟩
  unfold Cert.ReferenceIdeal.Read.val_main_v24
  rw [Cert.ReferenceIdeal.RefScatter.scatterAdd_apply, Cert.ReferenceIdeal.RefEnergy.init_apply]
  unfold Cert.Route.GR
  refine congrArg (0 + ·) ?_
  rw [Finset.filter_congr (fun p _ => by rw [Cert.ReferenceIdeal.RefEnergy.ids_apply])]
  exact Finset.sum_congr rfl fun p _ => Cert.ReferenceIdeal.RefEnergy.energy_apply x0 x1 x2 x3 x4 x5 x6 x7 x8 p

end Cert.ReferenceIdeal.RefValue

end
-- ==== Proof.KernelPieces.lean ====
/-
  What each control case of the body leaves, as values: the accumulator after a point is the update term of the
  point's blocks over what the accumulator held before (over the zero the reset stored, at a species' first
  tile), and at a species' last tile the output block is the flush term of that accumulator.
-/
import proofs.«413766_j75771813036181_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A species' first tile: the reset's zero, then the update over it. -/
theorem sout_A (c : Dev nD) (i : grid0.Coords) (arg2 : Memref sig .tc .vmem S1x1000x1296 .f32) (harg2 : arg2.IsWhole) (arg3 : Memref sig .tc .vmem S1x1296x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (arg9 : Memref sig .tc .vmem S1x256x1 .f32) (harg9 : arg9.IsWhole) (arg10 : Memref sig .tc .vmem S1x1x1 .f32) (harg10 : arg10.IsWhole) (arg11 : Memref sig .tc .vmem S1x1000x1 .i32) (harg11 : arg11.IsWhole) (arg12 : Memref sig .tc .vmem S1x1x1024 .f32) (harg12 : arg12.IsWhole) (arg13 : Memref sig .tc .vmem S1x1024 .f32) (harg13 : arg13.IsWhole) (hc0 : cond0_0 i) (hc1 : ¬cond0_1 i)
    (x0 : Vec F S1x1000x1296 .f32) (x1 : Vec F S1x1296x256 .f32) (x2 : Vec F S1x1x256 .f32) (x3 : Vec F S1x256x256 .f32) (x4 : Vec F S1x1x256 .f32) (x5 : Vec F S1x256x256 .f32) (x6 : Vec F S1x1x256 .f32) (x7 : Vec F S1x256x1 .f32) (x8 : Vec F S1x1x1 .f32) (x9 : Vec F S1x1000x1 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9
      = k0_pay1 (k0_pay4 x0 x1 x2 x3 x4 x5) x6 x7 x8 x9 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1000x1296) hz3, View.ld_unit_zero (S := S1x1296x256) hz3, View.ld_unit_zero (S := S1x1x256) hz3, View.ld_unit_zero (S := S1x256x256) hz3, View.ld_unit_zero (S := S1x256x1) hz3, View.ld_unit_zero (S := S1x1x1) hz3, View.ld_unit_zero (S := S1x1000x1) hz3, View.ld_unit_zero (S := S1x1x1024) hz3, View.ld_unit_zero (S := S1x1024) hz2, View.readCov_unit_zero (S := S1x1024) _ hz2]

/-- A middle tile: the update over what the point before left. -/
theorem sout_B (c : Dev nD) (i : grid0.Coords) (arg2 : Memref sig .tc .vmem S1x1000x1296 .f32) (harg2 : arg2.IsWhole) (arg3 : Memref sig .tc .vmem S1x1296x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (arg9 : Memref sig .tc .vmem S1x256x1 .f32) (harg9 : arg9.IsWhole) (arg10 : Memref sig .tc .vmem S1x1x1 .f32) (harg10 : arg10.IsWhole) (arg11 : Memref sig .tc .vmem S1x1000x1 .i32) (harg11 : arg11.IsWhole) (arg12 : Memref sig .tc .vmem S1x1x1024 .f32) (harg12 : arg12.IsWhole) (arg13 : Memref sig .tc .vmem S1x1024 .f32) (harg13 : arg13.IsWhole) (hc0 : ¬cond0_0 i) (hc1 : ¬cond0_1 i)
    (x0 : Vec F S1x1000x1296 .f32) (x1 : Vec F S1x1296x256 .f32) (x2 : Vec F S1x1x256 .f32) (x3 : Vec F S1x256x256 .f32) (x4 : Vec F S1x1x256 .f32) (x5 : Vec F S1x256x256 .f32) (x6 : Vec F S1x1x256 .f32) (x7 : Vec F S1x256x1 .f32) (x8 : Vec F S1x1x1 .f32) (x9 : Vec F S1x1000x1 .i32) (xs0 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay1 (k0_pay4 x0 x1 x2 x3 x4 x5) x6 x7 x8 x9 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1000x1296) hz3, View.ld_unit_zero (S := S1x1296x256) hz3, View.ld_unit_zero (S := S1x1x256) hz3, View.ld_unit_zero (S := S1x256x256) hz3, View.ld_unit_zero (S := S1x256x1) hz3, View.ld_unit_zero (S := S1x1x1) hz3, View.ld_unit_zero (S := S1x1000x1) hz3, View.ld_unit_zero (S := S1x1x1024) hz3, View.ld_unit_zero (S := S1x1024) hz2]

/-- A species' last tile: the same update … -/
theorem sout_C (c : Dev nD) (i : grid0.Coords) (arg2 : Memref sig .tc .vmem S1x1000x1296 .f32) (harg2 : arg2.IsWhole) (arg3 : Memref sig .tc .vmem S1x1296x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (arg9 : Memref sig .tc .vmem S1x256x1 .f32) (harg9 : arg9.IsWhole) (arg10 : Memref sig .tc .vmem S1x1x1 .f32) (harg10 : arg10.IsWhole) (arg11 : Memref sig .tc .vmem S1x1000x1 .i32) (harg11 : arg11.IsWhole) (arg12 : Memref sig .tc .vmem S1x1x1024 .f32) (harg12 : arg12.IsWhole) (arg13 : Memref sig .tc .vmem S1x1024 .f32) (harg13 : arg13.IsWhole) (hc0 : ¬cond0_0 i) (hc1 : cond0_1 i)
    (x0 : Vec F S1x1000x1296 .f32) (x1 : Vec F S1x1296x256 .f32) (x2 : Vec F S1x1x256 .f32) (x3 : Vec F S1x256x256 .f32) (x4 : Vec F S1x1x256 .f32) (x5 : Vec F S1x256x256 .f32) (x6 : Vec F S1x1x256 .f32) (x7 : Vec F S1x256x1 .f32) (x8 : Vec F S1x1x1 .f32) (x9 : Vec F S1x1000x1 .i32) (xs0 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay1 (k0_pay4 x0 x1 x2 x3 x4 x5) x6 x7 x8 x9 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1000x1296) hz3, View.ld_unit_zero (S := S1x1296x256) hz3, View.ld_unit_zero (S := S1x1x256) hz3, View.ld_unit_zero (S := S1x256x256) hz3, View.ld_unit_zero (S := S1x256x1) hz3, View.ld_unit_zero (S := S1x1x1) hz3, View.ld_unit_zero (S := S1x1000x1) hz3, View.ld_unit_zero (S := S1x1x1024) hz3, View.ld_unit_zero (S := S1x1024) hz2]

/-- … and the output block is the flush of the updated accumulator. -/
theorem out_C (c : Dev nD) (i : grid0.Coords) (arg2 : Memref sig .tc .vmem S1x1000x1296 .f32) (harg2 : arg2.IsWhole) (arg3 : Memref sig .tc .vmem S1x1296x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (arg9 : Memref sig .tc .vmem S1x256x1 .f32) (harg9 : arg9.IsWhole) (arg10 : Memref sig .tc .vmem S1x1x1 .f32) (harg10 : arg10.IsWhole) (arg11 : Memref sig .tc .vmem S1x1000x1 .i32) (harg11 : arg11.IsWhole) (arg12 : Memref sig .tc .vmem S1x1x1024 .f32) (harg12 : arg12.IsWhole) (arg13 : Memref sig .tc .vmem S1x1024 .f32) (harg13 : arg13.IsWhole) (hc0 : ¬cond0_0 i) (hc1 : cond0_1 i)
    (x0 : Vec F S1x1000x1296 .f32) (x1 : Vec F S1x1296x256 .f32) (x2 : Vec F S1x1x256 .f32) (x3 : Vec F S1x256x256 .f32) (x4 : Vec F S1x1x256 .f32) (x5 : Vec F S1x256x256 .f32) (x6 : Vec F S1x1x256 .f32) (x7 : Vec F S1x256x1 .f32) (x8 : Vec F S1x1x1 .f32) (x9 : Vec F S1x1000x1 .i32) (xs0 : Vec F S1x1024 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay2 (k0_pay1 (k0_pay4 x0 x1 x2 x3 x4 x5) x6 x7 x8 x9 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1000x1296) hz3, View.ld_unit_zero (S := S1x1296x256) hz3, View.ld_unit_zero (S := S1x1x256) hz3, View.ld_unit_zero (S := S1x256x256) hz3, View.ld_unit_zero (S := S1x256x1) hz3, View.ld_unit_zero (S := S1x1x1) hz3, View.ld_unit_zero (S := S1x1000x1) hz3, View.ld_unit_zero (S := S1x1x1024) hz3, View.ld_unit_zero (S := S1x1024) hz2, View.readCov_unit_zero (S := S1x1024) _ hz2]

end Cert.KernelIdeal.Pieces

end
-- ==== Proof.KernelPay.lean ====
/-
  The body's arithmetic read at an index, at the extended reals: the four pure terms the body stores.
  The three-layer term at row `r`, hidden coordinate `h` is the third layer's product before its bias of row `r`
  of the feature block (each `tpu.matmul` onto a zero accumulator is the sum over the contracted coordinate; the
  casts to bf16 are the identity; the bias row is broadcast along the rows; `x · logistic x` is SiLU).  The
  accumulator update at lane `l` is the old accumulator there plus, over the block's 1000 rows, the row's head
  value times the indicator that the row's id word is the lane's number (the one-hot is a `select` of the words
  `1.0` and `0.0` on `id = iota`, and the last `tpu.matmul` contracts the ROW axis of both operands).
-/
import proofs.«413766_j75771813036181_3_alg».proof.Proof.Gen.KernelIdeal.Skeleton
import proofs.«413766_j75771813036181_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Pay

open Cert.KernelIdeal Cert.KernelIdeal.Gen Idealize.ShloMosaic Idealize.ShloMosaic.TcCoe Idealize.ShloMosaic.ValueIdx

/-! ## The first layer's product: `[1000, 1296] · [1296, 256]` -/
theorem lhs_mm0_0 (i : S1000x256.Idx) (q : dot_S1000x1296_S1296x256_S1000x256_1_0_0_1_n_n.contr.Idx) :
    (dot_S1000x1296_S1296x256_S1000x256_1_0_0_1_n_n.lhsIdx i q 0).val = (i 0).val := by
  unfold DotDims.lhsIdx
  rw [dif_neg (show ¬(0 : Fin S1000x1296.rank) ∈ dot_S1000x1296_S1296x256_S1000x256_1_0_0_1_n_n.lhsBatch by decide), dif_pos (show (0 : Fin S1000x1296.rank) ∈ dot_S1000x1296_S1296x256_S1000x256_1_0_0_1_n_n.lhsNonContracting by decide)]
  rfl
theorem lhs_mm0_1 (i : S1000x256.Idx) (q : dot_S1000x1296_S1296x256_S1000x256_1_0_0_1_n_n.contr.Idx) :
    (dot_S1000x1296_S1296x256_S1000x256_1_0_0_1_n_n.lhsIdx i q 1).val = (q ⟨0, by decide⟩).val :=
  dot_S1000x1296_S1296x256_S1000x256_1_0_0_1_n_n.lhsIdx_val_of_single rfl i q
theorem rhs_mm0_0 (i : S1000x256.Idx) (q : dot_S1000x1296_S1296x256_S1000x256_1_0_0_1_n_n.contr.Idx) :
    (dot_S1000x1296_S1296x256_S1000x256_1_0_0_1_n_n.rhsIdx i q 0).val = (q ⟨0, by decide⟩).val :=
  dot_S1000x1296_S1296x256_S1000x256_1_0_0_1_n_n.rhsIdx_val_of_single rfl i q
theorem rhs_mm0_1 (i : S1000x256.Idx) (q : dot_S1000x1296_S1296x256_S1000x256_1_0_0_1_n_n.contr.Idx) :
    (dot_S1000x1296_S1296x256_S1000x256_1_0_0_1_n_n.rhsIdx i q 1).val = (i 1).val := by
  unfold DotDims.rhsIdx
  rw [dif_neg (show ¬(1 : Fin S1296x256.rank) ∈ dot_S1000x1296_S1296x256_S1000x256_1_0_0_1_n_n.rhsBatch by decide), dif_pos (show (1 : Fin S1296x256.rank) ∈ dot_S1000x1296_S1296x256_S1000x256_1_0_0_1_n_n.rhsNonContracting by decide)]
  rfl
/-- Onto the zero accumulator the product at `(p, q)` is the sum over the 1296 contracted coordinates. -/
theorem mm0 (l : FVec Ideal S1000x1296 .bf16) (r : FVec Ideal S1296x256 .bf16) (p : Fin 1000) (q : Fin 256) :
    matmul dot_S1000x1296_S1296x256_S1000x256_1_0_0_1_n_n none l r (constant S1000x256 .f32 0x00000000#32) (ix2 p q)
      = ∑ k : Fin 1296, l (ix2 p k) * r (ix2 k q) := by
  refine (Ideal.matmul_constant_zero_apply _ none l r (ix2 p q)).trans ?_
  rw [← Equiv.sum_comp (ValueIdx.contrEquiv1 dot_S1000x1296_S1296x256_S1000x256_1_0_0_1_n_n 1296 rfl rfl).symm]
  refine Finset.sum_congr rfl fun k _ => ?_
  have hk := ValueIdx.contrEquiv1_symm_val dot_S1000x1296_S1296x256_S1000x256_1_0_0_1_n_n 1296 rfl rfl k
  have el : dot_S1000x1296_S1296x256_S1000x256_1_0_0_1_n_n.lhsIdx (ix2 p q) ((ValueIdx.contrEquiv1 dot_S1000x1296_S1296x256_S1000x256_1_0_0_1_n_n 1296 rfl rfl).symm k) = ix2 p k := funext fun a => Fin.ext (by
    match a with
    | ⟨0, _⟩ => exact lhs_mm0_0 _ _
    | ⟨1, _⟩ => exact (lhs_mm0_1 _ _).trans hk)
  have er : dot_S1000x1296_S1296x256_S1000x256_1_0_0_1_n_n.rhsIdx (ix2 p q) ((ValueIdx.contrEquiv1 dot_S1000x1296_S1296x256_S1000x256_1_0_0_1_n_n 1296 rfl rfl).symm k) = ix2 k q := funext fun a => Fin.ext (by
    match a with
    | ⟨0, _⟩ => exact (rhs_mm0_0 _ _).trans hk
    | ⟨1, _⟩ => exact rhs_mm0_1 _ _)
  rw [el, er]

/-! ## The second and third layers' product: `[1000, 256] · [256, 256]` -/
theorem lhs_mm1_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_mm1_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_mm1_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_mm1_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl
/-- Onto the zero accumulator the product at `(p, q)` is the sum over the 256 contracted coordinates. -/
theorem mm1 (l : FVec Ideal S1000x256 .bf16) (r : FVec Ideal S256x256 .bf16) (p : Fin 1000) (q : Fin 256) :
    matmul dot_S1000x256_S256x256_S1000x256_1_0_0_1_n_n none l r (constant S1000x256 .f32 0x00000000#32) (ix2 p q)
      = ∑ k : Fin 256, l (ix2 p k) * r (ix2 k q) := by
  refine (Ideal.matmul_constant_zero_apply _ none l r (ix2 p q)).trans ?_
  rw [← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (rhs_mm1_0 _ _).trans hk
    | ⟨1, _⟩ => exact rhs_mm1_1 _ _)
  rw [el, er]

/-! ## The head's product: `[1000, 256] · [256, 1]` -/
theorem lhs_mm2_0 (i : S1000x1.Idx) (q : dot_S1000x256_S256x1_S1000x1_1_0_0_1_n_n.contr.Idx) :
    (dot_S1000x256_S256x1_S1000x1_1_0_0_1_n_n.lhsIdx i q 0).val = (i 0).val := by
  unfold DotDims.lhsIdx
  rw [dif_neg (show ¬(0 : Fin S1000x256.rank) ∈ dot_S1000x256_S256x1_S1000x1_1_0_0_1_n_n.lhsBatch by decide), dif_pos (show (0 : Fin S1000x256.rank) ∈ dot_S1000x256_S256x1_S1000x1_1_0_0_1_n_n.lhsNonContracting by decide)]
  rfl
theorem lhs_mm2_1 (i : S1000x1.Idx) (q : dot_S1000x256_S256x1_S1000x1_1_0_0_1_n_n.contr.Idx) :
    (dot_S1000x256_S256x1_S1000x1_1_0_0_1_n_n.lhsIdx i q 1).val = (q ⟨0, by decide⟩).val :=
  dot_S1000x256_S256x1_S1000x1_1_0_0_1_n_n.lhsIdx_val_of_single rfl i q
theorem rhs_mm2_0 (i : S1000x1.Idx) (q : dot_S1000x256_S256x1_S1000x1_1_0_0_1_n_n.contr.Idx) :
    (dot_S1000x256_S256x1_S1000x1_1_0_0_1_n_n.rhsIdx i q 0).val = (q ⟨0, by decide⟩).val :=
  dot_S1000x256_S256x1_S1000x1_1_0_0_1_n_n.rhsIdx_val_of_single rfl i q
theorem rhs_mm2_1 (i : S1000x1.Idx) (q : dot_S1000x256_S256x1_S1000x1_1_0_0_1_n_n.contr.Idx) :
    (dot_S1000x256_S256x1_S1000x1_1_0_0_1_n_n.rhsIdx i q 1).val = (i 1).val := by
  unfold DotDims.rhsIdx
  rw [dif_neg (show ¬(1 : Fin S256x1.rank) ∈ dot_S1000x256_S256x1_S1000x1_1_0_0_1_n_n.rhsBatch by decide), dif_pos (show (1 : Fin S256x1.rank) ∈ dot_S1000x256_S256x1_S1000x1_1_0_0_1_n_n.rhsNonContracting by decide)]
  rfl
/-- Onto the zero accumulator the product at `(p, q)` is the sum over the 256 contracted coordinates. -/
theorem mm2 (l : FVec Ideal S1000x256 .bf16) (r : FVec Ideal S256x1 .bf16) (p : Fin 1000) (q : Fin 1) :
    matmul dot_S1000x256_S256x1_S1000x1_1_0_0_1_n_n none l r (constant S1000x1 .f32 0x00000000#32) (ix2 p q)
      = ∑ k : Fin 256, l (ix2 p k) * r (ix2 k q) := by
  refine (Ideal.matmul_constant_zero_apply _ none l r (ix2 p q)).trans ?_
  rw [← Equiv.sum_comp (ValueIdx.contrEquiv1 dot_S1000x256_S256x1_S1000x1_1_0_0_1_n_n 256 rfl rfl).symm]
  refine Finset.sum_congr rfl fun k _ => ?_
  have hk := ValueIdx.contrEquiv1_symm_val dot_S1000x256_S256x1_S1000x1_1_0_0_1_n_n 256 rfl rfl k
  have el : dot_S1000x256_S256x1_S1000x1_1_0_0_1_n_n.lhsIdx (ix2 p q) ((ValueIdx.contrEquiv1 dot_S1000x256_S256x1_S1000x1_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S1000x256_S256x1_S1000x1_1_0_0_1_n_n.rhsIdx (ix2 p q) ((ValueIdx.contrEquiv1 dot_S1000x256_S256x1_S1000x1_1_0_0_1_n_n 256 rfl rfl).symm k) = ix2 k q := funext fun a => Fin.ext (by
    match a with
    | ⟨0, _⟩ => exact (rhs_mm2_0 _ _).trans hk
    | ⟨1, _⟩ => exact rhs_mm2_1 _ _)
  rw [el, er]

/-! ## The routing product: `[1000, 1]ᵀ · [1000, 1024]`, the ROW axis of both contracted -/
theorem lhs_mm3_0 (i : S1x1024.Idx) (q : dot_S1000x1_S1000x1024_S1x1024_0_0_1_1_n_n.contr.Idx) :
    (dot_S1000x1_S1000x1024_S1x1024_0_0_1_1_n_n.lhsIdx i q 0).val = (q ⟨0, by decide⟩).val :=
  dot_S1000x1_S1000x1024_S1x1024_0_0_1_1_n_n.lhsIdx_val_of_single rfl i q
theorem lhs_mm3_1 (i : S1x1024.Idx) (q : dot_S1000x1_S1000x1024_S1x1024_0_0_1_1_n_n.contr.Idx) :
    (dot_S1000x1_S1000x1024_S1x1024_0_0_1_1_n_n.lhsIdx i q 1).val = (i 0).val := by
  unfold DotDims.lhsIdx
  rw [dif_neg (show ¬(1 : Fin S1000x1.rank) ∈ dot_S1000x1_S1000x1024_S1x1024_0_0_1_1_n_n.lhsBatch by decide), dif_pos (show (1 : Fin S1000x1.rank) ∈ dot_S1000x1_S1000x1024_S1x1024_0_0_1_1_n_n.lhsNonContracting by decide)]
  rfl
theorem rhs_mm3_0 (i : S1x1024.Idx) (q : dot_S1000x1_S1000x1024_S1x1024_0_0_1_1_n_n.contr.Idx) :
    (dot_S1000x1_S1000x1024_S1x1024_0_0_1_1_n_n.rhsIdx i q 0).val = (q ⟨0, by decide⟩).val :=
  dot_S1000x1_S1000x1024_S1x1024_0_0_1_1_n_n.rhsIdx_val_of_single rfl i q
theorem rhs_mm3_1 (i : S1x1024.Idx) (q : dot_S1000x1_S1000x1024_S1x1024_0_0_1_1_n_n.contr.Idx) :
    (dot_S1000x1_S1000x1024_S1x1024_0_0_1_1_n_n.rhsIdx i q 1).val = (i 1).val := by
  unfold DotDims.rhsIdx
  rw [dif_neg (show ¬(1 : Fin S1000x1024.rank) ∈ dot_S1000x1_S1000x1024_S1x1024_0_0_1_1_n_n.rhsBatch by decide), dif_pos (show (1 : Fin S1000x1024.rank) ∈ dot_S1000x1_S1000x1024_S1x1024_0_0_1_1_n_n.rhsNonContracting by decide)]
  rfl
/-- Onto the zero accumulator the product at `(p, q)` is the sum over the 1000 rows. -/
theorem mm3 (l : FVec Ideal S1000x1 .bf16) (r : FVec Ideal S1000x1024 .bf16) (p : Fin 1) (q : Fin 1024) :
    matmul dot_S1000x1_S1000x1024_S1x1024_0_0_1_1_n_n none l r (constant S1x1024 .f32 0x00000000#32) (ix2 p q)
      = ∑ k : Fin 1000, l (ix2 k p) * r (ix2 k q) := by
  refine (Ideal.matmul_constant_zero_apply _ none l r (ix2 p q)).trans ?_
  rw [← Equiv.sum_comp (ValueIdx.contrEquiv1 dot_S1000x1_S1000x1024_S1x1024_0_0_1_1_n_n 1000 rfl rfl).symm]
  refine Finset.sum_congr rfl fun k _ => ?_
  have hk := ValueIdx.contrEquiv1_symm_val dot_S1000x1_S1000x1024_S1x1024_0_0_1_1_n_n 1000 rfl rfl k
  have el : dot_S1000x1_S1000x1024_S1x1024_0_0_1_1_n_n.lhsIdx (ix2 p q) ((ValueIdx.contrEquiv1 dot_S1000x1_S1000x1024_S1x1024_0_0_1_1_n_n 1000 rfl rfl).symm k) = ix2 k p := funext fun a => Fin.ext (by
    match a with
    | ⟨0, _⟩ => exact (lhs_mm3_0 _ _).trans hk
    | ⟨1, _⟩ => exact lhs_mm3_1 _ _)
  have er : dot_S1000x1_S1000x1024_S1x1024_0_0_1_1_n_n.rhsIdx (ix2 p q) ((ValueIdx.contrEquiv1 dot_S1000x1_S1000x1024_S1x1024_0_0_1_1_n_n 1000 rfl rfl).symm k) = ix2 k q := funext fun a => Fin.ext (by
    match a with
    | ⟨0, _⟩ => exact (rhs_mm3_0 _ _).trans hk
    | ⟨1, _⟩ => exact rhs_mm3_1 _ _)
  rw [el, er]

/-! ## The pointwise and layout steps at an index -/

/-- `x · logistic x` at an index is SiLU of the element. -/
theorem silu_at {s : Shape} (v : FVec Ideal s .f32) (i : s.Idx) : mulf v (logistic v) i = Cert.Route.silu (v i) := rfl

/-- A select on the equality bit of two words is the `if` on their equality. -/
theorem select_cmpi_eq {α : Type} {w : Nat} (a b : BitVec w) (X Y : α) :
    Scalar.select (IntOp.cmpi .eq a b) X Y = if a = b then X else Y := by
  by_cases h : a = b
  · have hc : IntOp.cmpi .eq a b = 1#1 := by
      subst h
      show BitVec.ofBool (a == a) = 1#1
      simp
    rw [hc, select_one, if_pos h]
  · have hc : IntOp.cmpi .eq a b = 0#1 := by
      have hb : (a == b) = false := by simpa using h
      show BitVec.ofBool (a == b) = 0#1
      rw [hb]
      rfl
    rw [hc, select_zero, if_neg h]

/-- An integer comparison at an index compares the elements. -/
theorem cmpi_at {s : Shape} {w : Nat} (p : CmpIPredicate) (a b : IVec s w) (i : s.Idx) :
    cmpi p a b i = IntOp.cmpi p (a i) (b i) := rfl

/-- A `[1000, 1]` column broadcast along 1024 lanes reads the row's one entry. -/
theorem bcast_col_at {α : Type} (v : S1000x1.Idx → α) (hb : S1000x1.Broadcasts S1000x1024) (r : Fin 1000) (l : Fin 1024) :
    broadcastTo S1000x1024 v hb (ix2 r l) = v (ix2 r 0) := by
  refine broadcastTo_apply v hb (ix2 r l) (ix2 r 0) fun ax => ?_
  match ax with
  | ⟨0, _⟩ => rfl
  | ⟨1, _⟩ => rfl

/-! ## The four payloads -/

/-- The reset stores zero everywhere. -/
theorem pay3_apply (i : S1x1024.Idx) : k0_pay3 (F := Ideal) i = 0 := by
  unfold k0_pay3
  rw [shapeCast_self]
  exact Ideal.ofBits_zero_f32

/-- The flush hands the accumulator's lane `l` to the output block's lane `l`. -/
theorem pay2_apply (v66 : Vec Ideal S1x1024 .f32) (l : Fin 1024) :
    k0_pay2 (F := Ideal) v66 (ix3 0 0 l) = v66 (ix2 0 l) := by
  unfold k0_pay2
  refine (shapeCast_apply _ _ (ix3 0 0 l) (ix1 l) ?_).trans ?_
  · rw [Shape.rowMajor_val_three, Shape.rowMajor_val_one]
    show l.val = ((0 * 1 + 0) * 1024 + l.val)
    omega
  · exact shapeCast_1a_a_apply _ _ l

/-- The first three layers' term at `(r, h)`. -/
theorem pay4_apply (x0 : Vec Ideal S1x1000x1296 .f32) (x1 : Vec Ideal S1x1296x256 .f32) (x2 : Vec Ideal S1x1x256 .f32)
    (x3 : Vec Ideal S1x256x256 .f32) (x4 : Vec Ideal S1x1x256 .f32) (x5 : Vec Ideal S1x256x256 .f32)
    (r : Fin 1000) (h : Fin 256) :
    k0_pay4 (F := Ideal) x0 x1 x2 x3 x4 x5 (ix2 r h)
      = Cert.Route.pre3 (fun d => x0 (ix3 0 r d)) (fun d j => x1 (ix3 0 d j)) (fun j => x2 (ix3 0 0 j))
          (fun d j => x3 (ix3 0 d j)) (fun j => x4 (ix3 0 0 j)) (fun d j => x5 (ix3 0 d j)) h := by
  unfold k0_pay4
  simp only [↓mm1, ↓mm0, ↓truncf_apply, ↓silu_at, ↓addf_apply, ↓broadcastTo_1b_ab_apply, ↓shapeCast_1ab_ab_apply]
  rfl

/-- The accumulator update at lane `l`. -/
theorem pay1_apply (v31 : FVec Ideal S1000x256 .f32) (x6 : Vec Ideal S1x1x256 .f32) (x7 : Vec Ideal S1x256x1 .f32)
    (x8 : Vec Ideal S1x1x1 .f32) (x9 : Vec Ideal S1x1000x1 .i32) (v58 : Vec Ideal S1x1024 .f32) (l : Fin 1024) :
    k0_pay1 (F := Ideal) v31 x6 x7 x8 x9 v58 (ix2 0 l)
      = v58 (ix2 0 l) + ∑ r : Fin 1000,
          Cert.Route.head (fun k => v31 (ix2 r k)) (fun k => x6 (ix3 0 0 k)) (fun k => x7 (ix3 0 k 0)) (x8 (ix3 0 0 0))
            * (if x9 (ix3 0 r 0) = BitVec.ofNat 32 l.val then (1 : EReal) else 0) := by
  unfold k0_pay1
  simp only [↓shapeCast_self, ↓addf_apply, ↓mm3, ↓mm2, ↓truncf_apply, ↓silu_at, ↓broadcastTo_1b_ab_apply,
    ↓shapeCast_1ab_ab_apply, ↓select_apply, ↓cmpi_at, ↓bcast_col_at, ↓iota_single_apply, select_cmpi_eq,
    ↓broadcast_apply, ↓Ideal.ofBits_def, ↓Ideal.ofBits_one_f32, ↓Ideal.ofBits_zero_f32]
  rfl

end Cert.KernelIdeal.Pay

end
-- ==== Proof.KernelBlocks.lean ====
/-
  Each input window's block at a grid point, read off the argument arrays.  Point `t` of the 4 × 25 grid is
  species `t / 25`, tile `t % 25`.  The feature window's block is rows `1000 (t % 25) … + 999` of the species'
  features, the id window's block the same rows of the species' ids (the ids reach the region through a
  broadcast that appends a unit axis); every weight window's block is the species' slice of its array, and the
  bias windows read arrays the host made from the biases by inserting a unit axis.
-/
import proofs.«413766_j75771813036181_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The species of grid point `t`. -/
abbrev sp (t : Fin cfg0.N) : Fin 4 := ⟨t.val / 25 % 4, Nat.mod_lt _ (by decide)⟩
/-- Row `r` of tile `t % 25`, as an atom of the species. -/
abbrev atom (t : Fin cfg0.N) (r : Fin 1000) : Fin 25000 :=
  ⟨1000 * (t.val % 25) + r.val, by have := Nat.mod_lt t.val (show 0 < 25 by decide); have := r.isLt; omega⟩

/-- The ten argument arrays as launched, at their literal types. -/
abbrev a0 (c : Dev nD) : Vec Ideal S4x25000x1296 .f32 := m ((c : Thread nD τ).loc main_arg0)
abbrev a1 (c : Dev nD) : Vec Ideal S4x1296x256 .f32 := m ((c : Thread nD τ).loc main_arg1)
abbrev a2 (c : Dev nD) : Vec Ideal S4x256 .f32 := m ((c : Thread nD τ).loc main_arg2)
abbrev a3 (c : Dev nD) : Vec Ideal S4x256x256 .f32 := m ((c : Thread nD τ).loc main_arg3)
abbrev a4 (c : Dev nD) : Vec Ideal S4x256 .f32 := m ((c : Thread nD τ).loc main_arg4)
abbrev a5 (c : Dev nD) : Vec Ideal S4x256x256 .f32 := m ((c : Thread nD τ).loc main_arg5)
abbrev a6 (c : Dev nD) : Vec Ideal S4x256 .f32 := m ((c : Thread nD τ).loc main_arg6)
abbrev a7 (c : Dev nD) : Vec Ideal S4x256x1 .f32 := m ((c : Thread nD τ).loc main_arg7)
abbrev a8 (c : Dev nD) : Vec Ideal S4x1 .f32 := m ((c : Thread nD τ).loc main_arg8)
abbrev a9 (c : Dev nD) : Vec Ideal S4x25000 .i32 := m ((c : Thread nD τ).loc main_arg9)

/-- The ten input blocks at point `t`, at their literal types. -/
abbrev b0 (c : Dev nD) (t : Fin cfg0.N) : Vec Ideal S1x1000x1296 .f32 := iblk m c 0 t
abbrev b1 (c : Dev nD) (t : Fin cfg0.N) : Vec Ideal S1x1296x256 .f32 := iblk m c 1 t
abbrev b2 (c : Dev nD) (t : Fin cfg0.N) : Vec Ideal S1x1x256 .f32 := iblk m c 2 t
abbrev b3 (c : Dev nD) (t : Fin cfg0.N) : Vec Ideal S1x256x256 .f32 := iblk m c 3 t
abbrev b4 (c : Dev nD) (t : Fin cfg0.N) : Vec Ideal S1x1x256 .f32 := iblk m c 4 t
abbrev b5 (c : Dev nD) (t : Fin cfg0.N) : Vec Ideal S1x256x256 .f32 := iblk m c 5 t
abbrev b6 (c : Dev nD) (t : Fin cfg0.N) : Vec Ideal S1x1x256 .f32 := iblk m c 6 t
abbrev b7 (c : Dev nD) (t : Fin cfg0.N) : Vec Ideal S1x256x1 .f32 := iblk m c 7 t
abbrev b8 (c : Dev nD) (t : Fin cfg0.N) : Vec Ideal S1x1x1 .f32 := iblk m c 8 t
abbrev b9 (c : Dev nD) (t : Fin cfg0.N) : Vec Ideal S1x1000x1 .i32 := iblk m c 9 t

/-! ## The grid and the windows' index maps

A block's coordinate in its array is always (the window's index on that axis) × (the block's extent there) + the
coordinate inside the block.  The index maps are decided over the 100 grid points. -/

/-- A grid point is below 100. -/
theorem t_lt (t : Fin cfg0.N) : t.val < 100 := by
  have h : t.val < grid0.N := t.isLt
  rwa [N_0] at h

/-- The feature window's index at `t`: (species, tile, 0). -/
theorem idx0 : ∀ t : Fin cfg0.N, win0_0.index t (0 : Fin 3) = t.val / 25 ∧ win0_0.index t (1 : Fin 3) = t.val % 25 ∧ win0_0.index t (2 : Fin 3) = 0 :=
  (by decide +kernel : ∀ t : Fin grid0.N, _)
/-- A weight or bias window's index at `t`: (species, 0, 0). -/
theorem idx1 : ∀ t : Fin cfg0.N, win0_1.index t (0 : Fin 3) = t.val / 25 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 25 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 25 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 25 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 25 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 25 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 25 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 25 ∧ win0_8.index t (1 : Fin 3) = 0 ∧ win0_8.index t (2 : Fin 3) = 0 :=
  (by decide +kernel : ∀ t : Fin grid0.N, _)
/-- The id window's index at `t`: (species, tile, 0). -/
theorem idx9 : ∀ t : Fin cfg0.N, win0_9.index t (0 : Fin 3) = t.val / 25 ∧ win0_9.index t (1 : Fin 3) = t.val % 25 ∧ win0_9.index t (2 : Fin 3) = 0 :=
  (by decide +kernel : ∀ t : Fin grid0.N, _)

/-! ## The arrays the host made before the region -/

/-- The first bias array as the region finds it: the bias with a unit axis inserted. -/
theorem v1_eq (c : Dev nD) : (V m c main_v1 : Vec Ideal S4x1x256 .f32)
    = broadcastInDim S4x1x256 ![0, 2] bcast_S4x256_S4x1x256_0_2 (a2 m c) := by
  show StableHlo.after hostOps0 (fun b => m (c, b)) (Proc.devRef .tc main_v1) = _
  after_results
/-- The second bias array as the region finds it: the bias with a unit axis inserted. -/
theorem v2_eq (c : Dev nD) : (V m c main_v2 : Vec Ideal S4x1x256 .f32)
    = broadcastInDim S4x1x256 ![0, 2] bcast_S4x256_S4x1x256_0_2 (a4 m c) := by
  show StableHlo.after hostOps0 (fun b => m (c, b)) (Proc.devRef .tc main_v2) = _
  after_results
/-- The third bias array as the region finds it: the bias with a unit axis inserted. -/
theorem v3_eq (c : Dev nD) : (V m c main_v3 : Vec Ideal S4x1x256 .f32)
    = broadcastInDim S4x1x256 ![0, 2] bcast_S4x256_S4x1x256_0_2 (a6 m c) := by
  show StableHlo.after hostOps0 (fun b => m (c, b)) (Proc.devRef .tc main_v3) = _
  after_results
/-- The last bias array as the region finds it: the bias with a unit axis inserted. -/
theorem v4_eq (c : Dev nD) : (V m c main_v4 : Vec Ideal S4x1x1 .f32)
    = broadcastInDim S4x1x1 ![0, 2] bcast_S4x1_S4x1x1_0_2 (a8 m c) := by
  show StableHlo.after hostOps0 (fun b => m (c, b)) (Proc.devRef .tc main_v4) = _
  after_results
/-- The id array as the region finds it: the ids with a trailing unit axis. -/
theorem v0_eq (c : Dev nD) : (V m c main_v0 : Vec Ideal S4x25000x1 .i32)
    = broadcastInDim S4x25000x1 ![0, 1] bcast_S4x25000_S4x25000x1_0_1 (a9 m c) := by
  show StableHlo.after hostOps0 (fun b => m (c, b)) (Proc.devRef .tc main_v0) = _
  after_results

/-! ## The blocks -/

theorem blk0 (c : Dev nD) (t : Fin cfg0.N) (r : Fin 1000) (d : Fin 1296) :
    b0 m c t (ix3 0 r d) = a0 m c (ix3 (sp t) (atom t r) d) := by
  have hi := idx0 t
  have ht := t_lt t
  show iblk m c 0 t _ = _
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1 + 1 * 0 = t.val / 25 % 4; rw [hi.1]; omega
  | ⟨1, _⟩ => show win0_0.index t 1 * 1000 + 1 * r.val = 1000 * (t.val % 25) + r.val; rw [hi.2.1]; omega
  | ⟨2, _⟩ => show win0_0.index t 2 * 1296 + 1 * d.val = d.val; rw [hi.2.2]; omega
theorem blk1 (c : Dev nD) (t : Fin cfg0.N) (d : Fin 1296) (h : Fin 256) :
    b1 m c t (ix3 0 d h) = a1 m c (ix3 (sp t) d h) := by
  have hi := idx1 t
  have ht := t_lt t
  show iblk m c 1 t _ = _
  unfold iblk
  rw [View.read_apply]
  show V m c main_arg1 _ = m ((c : Thread nD τ).loc main_arg1) _
  rw [V_main_arg1]
  congr 1
  funext a
  apply Fin.ext
  match a with
  | ⟨0, _⟩ => show win0_1.index t 0 * 1 + 1 * 0 = t.val / 25 % 4; rw [hi.1]; omega
  | ⟨1, _⟩ => show win0_1.index t 1 * 1296 + 1 * d.val = d.val; rw [hi.2.1]; omega
  | ⟨2, _⟩ => show win0_1.index t 2 * 256 + 1 * h.val = h.val; rw [hi.2.2]; omega
theorem blk2 (c : Dev nD) (t : Fin cfg0.N) (h : Fin 256) :
    b2 m c t (ix3 0 0 h) = a2 m c (ix2 (sp t) h) := by
  have hi := idx2 t
  have ht := t_lt t
  show iblk m c 2 t _ = _
  unfold iblk
  rw [View.read_apply]
  show (V m c main_v1 : Vec Ideal S4x1x256 .f32) _ = _
  rw [v1_eq]
  refine broadcastInDim_apply _ bcast_S4x256_S4x1x256_0_2 (a2 m c) _ (ix2 (sp t) h) (fun a => ?_)
  match a with
  | ⟨0, _⟩ =>
    show t.val / 25 % 4 = if (4 : Nat) = 1 then 0 else win0_2.index t 0 * 1 + 1 * 0
    rw [if_neg (by decide), hi.1]; omega
  | ⟨1, _⟩ =>
    show h.val = if (256 : Nat) = 1 then 0 else win0_2.index t 2 * 256 + 1 * h.val
    rw [if_neg (by decide), hi.2.2]; omega
theorem blk3 (c : Dev nD) (t : Fin cfg0.N) (d : Fin 256) (h : Fin 256) :
    b3 m c t (ix3 0 d h) = a3 m c (ix3 (sp t) d h) := by
  have hi := idx3 t
  have ht := t_lt t
  show iblk m c 3 t _ = _
  unfold iblk
  rw [View.read_apply]
  show V m c main_arg3 _ = m ((c : Thread nD τ).loc main_arg3) _
  rw [V_main_arg3]
  congr 1
  funext a
  apply Fin.ext
  match a with
  | ⟨0, _⟩ => show win0_3.index t 0 * 1 + 1 * 0 = t.val / 25 % 4; rw [hi.1]; omega
  | ⟨1, _⟩ => show win0_3.index t 1 * 256 + 1 * d.val = d.val; rw [hi.2.1]; omega
  | ⟨2, _⟩ => show win0_3.index t 2 * 256 + 1 * h.val = h.val; rw [hi.2.2]; omega
theorem blk4 (c : Dev nD) (t : Fin cfg0.N) (h : Fin 256) :
    b4 m c t (ix3 0 0 h) = a4 m c (ix2 (sp t) h) := by
  have hi := idx4 t
  have ht := t_lt t
  show iblk m c 4 t _ = _
  unfold iblk
  rw [View.read_apply]
  show (V m c main_v2 : Vec Ideal S4x1x256 .f32) _ = _
  rw [v2_eq]
  refine broadcastInDim_apply _ bcast_S4x256_S4x1x256_0_2 (a4 m c) _ (ix2 (sp t) h) (fun a => ?_)
  match a with
  | ⟨0, _⟩ =>
    show t.val / 25 % 4 = if (4 : Nat) = 1 then 0 else win0_4.index t 0 * 1 + 1 * 0
    rw [if_neg (by decide), hi.1]; omega
  | ⟨1, _⟩ =>
    show h.val = if (256 : Nat) = 1 then 0 else win0_4.index t 2 * 256 + 1 * h.val
    rw [if_neg (by decide), hi.2.2]; omega
theorem blk5 (c : Dev nD) (t : Fin cfg0.N) (d : Fin 256) (h : Fin 256) :
    b5 m c t (ix3 0 d h) = a5 m c (ix3 (sp t) d h) := by
  have hi := idx5 t
  have ht := t_lt t
  show iblk m c 5 t _ = _
  unfold iblk
  rw [View.read_apply]
  show V m c main_arg5 _ = m ((c : Thread nD τ).loc main_arg5) _
  rw [V_main_arg5]
  congr 1
  funext a
  apply Fin.ext
  match a with
  | ⟨0, _⟩ => show win0_5.index t 0 * 1 + 1 * 0 = t.val / 25 % 4; rw [hi.1]; omega
  | ⟨1, _⟩ => show win0_5.index t 1 * 256 + 1 * d.val = d.val; rw [hi.2.1]; omega
  | ⟨2, _⟩ => show win0_5.index t 2 * 256 + 1 * h.val = h.val; rw [hi.2.2]; omega
theorem blk6 (c : Dev nD) (t : Fin cfg0.N) (h : Fin 256) :
    b6 m c t (ix3 0 0 h) = a6 m c (ix2 (sp t) h) := by
  have hi := idx6 t
  have ht := t_lt t
  show iblk m c 6 t _ = _
  unfold iblk
  rw [View.read_apply]
  show (V m c main_v3 : Vec Ideal S4x1x256 .f32) _ = _
  rw [v3_eq]
  refine broadcastInDim_apply _ bcast_S4x256_S4x1x256_0_2 (a6 m c) _ (ix2 (sp t) h) (fun a => ?_)
  match a with
  | ⟨0, _⟩ =>
    show t.val / 25 % 4 = if (4 : Nat) = 1 then 0 else win0_6.index t 0 * 1 + 1 * 0
    rw [if_neg (by decide), hi.1]; omega
  | ⟨1, _⟩ =>
    show h.val = if (256 : Nat) = 1 then 0 else win0_6.index t 2 * 256 + 1 * h.val
    rw [if_neg (by decide), hi.2.2]; omega
theorem blk7 (c : Dev nD) (t : Fin cfg0.N) (k : Fin 256) :
    b7 m c t (ix3 0 k 0) = a7 m c (ix3 (sp t) k 0) := by
  have hi := idx7 t
  have ht := t_lt t
  show iblk m c 7 t _ = _
  unfold iblk
  rw [View.read_apply]
  show V m c main_arg7 _ = m ((c : Thread nD τ).loc main_arg7) _
  rw [V_main_arg7]
  congr 1
  funext a
  apply Fin.ext
  match a with
  | ⟨0, _⟩ => show win0_7.index t 0 * 1 + 1 * 0 = t.val / 25 % 4; rw [hi.1]; omega
  | ⟨1, _⟩ => show win0_7.index t 1 * 256 + 1 * k.val = k.val; rw [hi.2.1]; omega
  | ⟨2, _⟩ => show win0_7.index t 2 * 1 + 1 * 0 = 0; rw [hi.2.2]
theorem blk8 (c : Dev nD) (t : Fin cfg0.N) :
    b8 m c t (ix3 0 0 0) = a8 m c (ix2 (sp t) 0) := by
  have hi := idx8 t
  have ht := t_lt t
  show iblk m c 8 t _ = _
  unfold iblk
  rw [View.read_apply]
  show (V m c main_v4 : Vec Ideal S4x1x1 .f32) _ = _
  rw [v4_eq]
  refine broadcastInDim_apply _ bcast_S4x1_S4x1x1_0_2 (a8 m c) _ (ix2 (sp t) 0) (fun a => ?_)
  match a with
  | ⟨0, _⟩ =>
    show t.val / 25 % 4 = if (4 : Nat) = 1 then 0 else win0_8.index t 0 * 1 + 1 * 0
    rw [if_neg (by decide), hi.1]; omega
  | ⟨1, _⟩ =>
    show 0 = if (1 : Nat) = 1 then 0 else win0_8.index t 2 * 1 + 1 * 0
    rw [if_pos rfl]
theorem blk9 (c : Dev nD) (t : Fin cfg0.N) (r : Fin 1000) :
    b9 m c t (ix3 0 r 0) = a9 m c (ix2 (sp t) (atom t r)) := by
  have hi := idx9 t
  have ht := t_lt t
  show iblk m c 9 t _ = _
  unfold iblk
  rw [View.read_apply]
  show (V m c main_v0 : Vec Ideal S4x25000x1 .i32) _ = _
  rw [v0_eq]
  refine broadcastInDim_apply _ bcast_S4x25000_S4x25000x1_0_1 (a9 m c) _ (ix2 (sp t) (atom t r)) (fun a => ?_)
  match a with
  | ⟨0, _⟩ =>
    show t.val / 25 % 4 = if (4 : Nat) = 1 then 0 else win0_9.index t 0 * 1 + 1 * 0
    rw [if_neg (by decide), hi.1]; omega
  | ⟨1, _⟩ =>
    show 1000 * (t.val % 25) + r.val = if (25000 : Nat) = 1 then 0 else win0_9.index t 1 * 1000 + 1 * r.val
    rw [if_neg (by decide), hi.2.1]; omega

end Cert.KernelIdeal.Blocks

end
-- ==== Proof.KernelValue.lean ====
/-
  The kernel's result, read: the value of the idealized kernel's result array as the tiled arrangement of the
  routed energy sum.  Per grid point the accumulator gains the point's part (the update term of the point's
  blocks, which are rows of the argument arrays); over a species' 25 points it runs from the reset's zero to the
  sum of the 25 parts, by induction on the point; the species' last point hands it to the output block, the one
  block of the output array that point writes back, and those four blocks cover the array; the host then adds
  the four species' rows to a zero and keeps the first 1000 lanes.
-/
import proofs.«413766_j75771813036181_3_alg».proof.Proof.Gen.KernelIdeal.Frame
import proofs.«413766_j75771813036181_3_alg».proof.Proof.Spec
import proofs.«413766_j75771813036181_3_alg».proof.Proof.KernelPieces
import proofs.«413766_j75771813036181_3_alg».proof.Proof.KernelPay
import proofs.«413766_j75771813036181_3_alg».proof.Proof.KernelBlocks
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Pay Cert.KernelIdeal.Pieces

variable (m : (ℓ : Loc nD τ sig) → Buf (Elt Ideal) ℓ) (ρ : Dev nD → PrngReg)

/-- The atoms' energies and ids, from the argument arrays as launched. -/
abbrev En (c : Dev nD) : Fin 4 → Fin 25000 → EReal :=
  Cert.Route.E (a0 m c) (a1 m c) (a2 m c) (a3 m c) (a4 m c) (a5 m c) (a6 m c) (a7 m c) (a8 m c)
abbrev Ids (c : Dev nD) : Fin 4 → Fin 25000 → BitVec 32 := Cert.Route.idsOf (a9 m c)

/-! ## One point's update -/

/-- The update term of point `t`'s blocks over an accumulator `v`, at lane `l`: `v` there plus the point's part. -/
theorem tile_eq (c : Dev nD) (t : Fin cfg0.N) (v : Vec Ideal S1x1024 .f32) (l : Fin 1024) :
    k0_pay1 (F := Ideal) (k0_pay4 (b0 m c t) (b1 m c t) (b2 m c t) (b3 m c t) (b4 m c t) (b5 m c t)) (b6 m c t) (b7 m c t) (b8 m c t) (b9 m c t) v (ix2 0 l)
      = v (ix2 0 l) + Cert.Route.tilePart (En m c) (Ids m c) t.val l := by
  rw [pay1_apply]
  refine congrArg (v (ix2 0 l) + ·) ?_
  unfold Cert.Route.tilePart
  refine Finset.sum_congr rfl fun r _ => ?_
  simp only [pay4_apply, blk0, blk1, blk2, blk3, blk4, blk5, blk6, blk7, blk8, blk9]
  rfl

/-! ## The sums' bookkeeping -/

theorem first_part (e : Fin 4 → Fin 25000 → EReal) (ids : Fin 4 → Fin 25000 → BitVec 32) (n : ℕ) (l : Fin 1024)
    (h0 : n % 25 = 0) :
    (0 : EReal) + Cert.Route.tilePart e ids n l
      = 0 + ∑ i ∈ Finset.range (n % 25 + 1), Cert.Route.tilePart e ids (25 * (n / 25) + i) l := by
  have hn : 25 * (n / 25) + 0 = n := by omega
  rw [h0, Finset.sum_range_one, hn]

theorem next_part (e : Fin 4 → Fin 25000 → EReal) (ids : Fin 4 → Fin 25000 → BitVec 32) (n : ℕ) (l : Fin 1024)
    (h0 : ¬(n + 1) % 25 = 0) (acc : EReal)
    (hacc : acc = 0 + ∑ i ∈ Finset.range (n % 25 + 1), Cert.Route.tilePart e ids (25 * (n / 25) + i) l) :
    acc + Cert.Route.tilePart e ids (n + 1) l
      = 0 + ∑ i ∈ Finset.range ((n + 1) % 25 + 1), Cert.Route.tilePart e ids (25 * ((n + 1) / 25) + i) l := by
  have h1 : (n + 1) % 25 = n % 25 + 1 := by omega
  have h2 : (n + 1) / 25 = n / 25 := by omega
  have h3 : 25 * (n / 25) + (n % 25 + 1) = n + 1 := by omega
  rw [hacc, h1, h2, Finset.sum_range_succ _ (n % 25 + 1), h3, add_assoc]

/-! ## The accumulator after each point -/

/-- After point `n` (species `n / 25`, tile `n % 25`) the accumulator's lane `l` is zero plus the parts of the species'
    tiles `0 … n % 25`: by induction on the point. -/
theorem acc_eq (c : Dev nD) : ∀ (n : ℕ) (h : n < cfg0.N) (l : Fin 1024),
    ((outsAt0 m c n h).2 : Vec Ideal S1x1024 .f32) (ix2 0 l)
      = 0 + ∑ i ∈ Finset.range (n % 25 + 1), Cert.Route.tilePart (En m c) (Ids m c) (25 * (n / 25) + i) l
  | 0, h, l => by
    have h0 : (⟨0, h⟩ : Fin cfg0.N).val % 25 = 0 := rfl
    have h1 : ¬(⟨0, h⟩ : Fin cfg0.N).val % 25 = 24 := by show ¬(0 % 25 = 24); decide
    rw [outsAt0_A m c ⟨0, h⟩ h0 h1]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩)) (ix2 0 l)).trans ?_
    refine (tile_eq m c ⟨0, h⟩ (k0_pay3 (F := Ideal)) l).trans ?_
    rw [pay3_apply]
    exact first_part _ _ 0 l rfl
  | n + 1, h, l => by
    have hN : n + 1 < 100 := lt_of_lt_of_eq h (show cfg0.N = 100 from N_0)
    by_cases h0 : (n + 1) % 25 = 0
    · have h1 : ¬(n + 1) % 25 = 24 := by omega
      rw [outsAt0_A m c ⟨n + 1, h⟩ h0 h1]
      dsimp only
      refine (congrFun (sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩)) (ix2 0 l)).trans ?_
      refine (tile_eq m c ⟨n + 1, h⟩ (k0_pay3 (F := Ideal)) l).trans ?_
      rw [pay3_apply]
      exact first_part _ _ (n + 1) l h0
    · by_cases h1 : (n + 1) % 25 = 24
      · rw [outsAt0_C m c ⟨n + 1, h⟩ h0 h1]
        dsimp only
        refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (outsAt0 m c n (Nat.lt_of_succ_lt h)).2) (ix2 0 l)).trans ?_
        refine (tile_eq m c ⟨n + 1, h⟩ _ l).trans ?_
        exact next_part _ _ n l h0 _ (acc_eq c n (Nat.lt_of_succ_lt h) l)
      · rw [outsAt0_B m c ⟨n + 1, h⟩ h0 h1]
        dsimp only
        refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (outsAt0 m c n (Nat.lt_of_succ_lt h)).2) (ix2 0 l)).trans ?_
        refine (tile_eq m c ⟨n + 1, h⟩ _ l).trans ?_
        exact next_part _ _ n l h0 _ (acc_eq c n (Nat.lt_of_succ_lt h) l)

/-- At a species' last tile the output block is the flush of the accumulator the point leaves. -/
theorem out_is_flush (c : Dev nD) (t : Fin cfg0.N) (h0 : ¬t.val % 25 = 0) (h1 : t.val % 25 = 24) :
    (outsAt0 m c t.val t.isLt).1 = k0_pay2 (F := Ideal) (outsAt0 m c t.val t.isLt).2 := by
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).trans
    (congrArg k0_pay2 (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).symm)

/-- So there the output block's lane `l` is zero plus the species' 25 parts. -/
theorem out_eq (c : Dev nD) (t : Fin cfg0.N) (h24 : t.val % 25 = 24) (l : Fin 1024) :
    ((outsAt0 m c t.val t.isLt).1 : Vec Ideal S1x1x1024 .f32) (ix3 0 0 l)
      = 0 + ∑ i ∈ Finset.range 25, Cert.Route.tilePart (En m c) (Ids m c) (25 * (t.val / 25) + i) l := by
  rw [out_is_flush m c t (by omega) h24, pay2_apply, acc_eq m c t.val t.isLt l, h24]

/-! ## The output array after the run -/

/-- The output array's contents: row `s`, lane `l` holds zero plus the 25 parts of species `s`. -/
def Gout (c : Dev nD) : Vec Ideal S4x1x1024 .f32 := fun i =>
  0 + ∑ k ∈ Finset.range 25, Cert.Route.tilePart (En m c) (Ids m c) (25 * (i 0).val + k) ⟨(i 2).val, (i 2).isLt⟩

/-- The output window's block index at point `t` is (species, 0, 0). -/
theorem idx10 : ∀ t : Fin cfg0.N, win0_10.index t (0 : Fin 3) = t.val / 25 ∧ win0_10.index t (1 : Fin 3) = 0
    ∧ win0_10.index t (2 : Fin 3) = 0 :=
  (by decide +kernel : ∀ t : Fin grid0.N, _)

/-- `Gout` at an index whose species coordinate is `s` and whose lane is `l`. -/
theorem Gout_apply (c : Dev nD) (i : S4x1x1024.Idx) (s : ℕ) (l : Fin 1024) (hs : (i 0).val = s) (hl : (i 2).val = l.val) :
    Gout m c i = 0 + ∑ k ∈ Finset.range 25, Cert.Route.tilePart (En m c) (Ids m c) (25 * s + k) l := by
  have e : (⟨(i 2).val, (i 2).isLt⟩ : Fin 1024) = l := Fin.ext hl
  unfold Gout
  rw [e, hs]

/-- The output block at a species' last tile, at any index of the block. -/
theorem out_eq' (c : Dev nD) (t : Fin cfg0.N) (h24 : t.val % 25 = 24) (y : S1x1x1024.Idx) :
    ((outsAt0 m c t.val t.isLt).1 : Vec Ideal S1x1x1024 .f32) y
      = 0 + ∑ i ∈ Finset.range 25, Cert.Route.tilePart (En m c) (Ids m c) (25 * (t.val / 25) + i) ⟨(y 2).val, (y 2).isLt⟩ := by
  have h0 : (y 0).val < 1 := (y 0).isLt
  have h1 : (y 1).val < 1 := (y 1).isLt
  have hy : y = ix3 (0 : Fin 1) (0 : Fin 1) (⟨(y 2).val, (y 2).isLt⟩ : Fin 1024) := by
    funext a; apply Fin.ext
    match a with
    | ⟨0, _⟩ => show (y 0).val = 0; omega
    | ⟨1, _⟩ => show (y 1).val = 0; omega
    | ⟨2, _⟩ => rfl
  exact (congrArg ((outsAt0 m c t.val t.isLt).1 : Vec Ideal S1x1x1024 .f32) hy).trans (out_eq m c t h24 _)

/-- What a species' last point writes back is its block of `Gout`. -/
theorem flushed_eq (c : Dev nD) (t : Fin cfg0.N) (hf : (cfg0.win 10).flush t = true) :
    (dats m 0 c).flushed 10 t = ((cfg0.win 10).blk t).view.read (Elt Ideal) (Gout m c) := by
  have h24 : t.val % 25 = 24 := (flush0_10 t).mp hf
  have hN : t.val < 100 := lt_of_lt_of_eq t.isLt (show cfg0.N = 100 from N_0)
  obtain ⟨e0, e1, e2⟩ := idx10 t
  show (cfg0.win 10).cut (grid0.coords t) ((dats m 0 c).after 10 t) = _
  rw [after0_10]
  funext y
  show ((outsAt0 m c t.val t.isLt).1 : Vec Ideal S1x1x1024 .f32) y = Gout m c (((cfg0.win 10).blk t).view.emb y)
  have h0' : (y 0).val < 1 := (y 0).isLt
  have h2' : (y 2).val < 1024 := (y 2).isLt
  rw [Gout_apply m c _ (t.val / 25) ⟨(y 2).val, h2'⟩
    (by show win0_10.index t (0 : Fin 3) * 1 + 1 * (y 0).val = t.val / 25; omega)
    (by show win0_10.index t (2 : Fin 3) * 1024 + 1 * (y 2).val = (y 2).val; omega)]
  exact out_eq' m c t h24 y

/-- An index of the output array is in point `t`'s block iff each coordinate is in the block's range. -/
theorem mem_blk10 (t : Fin cfg0.N) (i : S4x1x1024.Idx) :
    i ∈ ((cfg0.win 10).blk t).view.set ↔ ∀ a : Fin 3, win0_10.index t a * S1x1x1024.size a ≤ (i a).val ∧ (i a).val < win0_10.index t a * S1x1x1024.size a + S1x1x1024.size a := by
  show i ∈ ((View.whole main_v5).slice (win0_10.rect t)).set ↔ _
  rw [View.set_slice_whole, Rect.mem_set_unit]
  exact Iff.rfl

/-- Row `s` of the output array is the block the last point of species `s` writes back. -/
theorem cover (i : S4x1x1024.Idx) : ∃ t : Fin cfg0.N, (cfg0.win 10).flush t = true ∧ i ∈ ((cfg0.win 10).blk t).view.set := by
  have hN : cfg0.N = 100 := N_0
  have hi0 : (i 0).val < 4 := (i 0).isLt
  have hi1 : (i 1).val < 1 := (i 1).isLt
  have hi2 : (i 2).val < 1024 := (i 2).isLt
  let t : Fin cfg0.N := ⟨25 * (i 0).val + 24, by omega⟩
  have ht : t.val = 25 * (i 0).val + 24 := rfl
  obtain ⟨e0, e1, e2⟩ := idx10 t
  refine ⟨t, (flush0_10 t).mpr (by omega), ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 1024 ≤ (i 2).val ∧ (i 2).val < win0_10.index t (2 : Fin 3) * 1024 + 1024; omega

/-- The output array after the run. -/
theorem final_out (c : Dev nD) : (dats m 0 c).arrAt 10 cfg0.N = Gout m c :=
  (dats m 0 c).arrAt_eq_of_cover 10 (Gout m c) (flushed_eq m c) cover

/-! ## The host's tail -/

/-- The kept coordinate of the host's sum over the species and the unit axis is the lane. -/
theorem drop_val (i : S4x1x1024.Idx) : (reducesTo_S4x1x1024_S1024_d0_1.drop i 0).val = (i 2).val := rfl

/-- That sum at lane `q`: the initial value plus the four rows' entries there. -/
theorem reduce_rows (x : FVec Ideal S4x1x1024 .f32) (init : EReal) (q : Fin 1024) :
    Ideal.hostReduceAdd reducesTo_S4x1x1024_S1024_d0_1 x init (ix1 q) = init + ∑ s : Fin 4, x (ix3 s (0 : Fin 1) q) := by
  unfold Ideal.hostReduceAdd
  refine congrArg (init + ·) ?_
  have back : ∀ i ∈ Finset.univ.filter (fun i : S4x1x1024.Idx => reducesTo_S4x1x1024_S1024_d0_1.drop i = ix1 q),
      ix3 (i 0) (0 : Fin 1) q = i := by
    intro i hi
    have hd := (Finset.mem_filter.mp hi).2
    have h2 : (i 2).val = q.val := (drop_val i).symm.trans (congrArg (fun j : S1024.Idx => (j 0).val) hd)
    have h1 : (i 1).val < 1 := (i 1).isLt
    funext a; apply Fin.ext
    match a with
    | ⟨0, _⟩ => rfl
    | ⟨1, _⟩ => show 0 = (i 1).val; omega
    | ⟨2, _⟩ => exact h2.symm
  refine Finset.sum_nbij' (fun i => i 0) (fun s => ix3 s (0 : Fin 1) q) (fun _ _ => Finset.mem_univ _) ?_ back
    (fun _ _ => rfl) (fun i hi => congrArg x (back i hi).symm)
  intro s _
  refine Finset.mem_filter.mpr ⟨Finset.mem_univ _, ?_⟩
  funext b; apply Fin.ext
  match b with
  | ⟨0, _⟩ => rfl

/-- The host's tail: the four species' rows added to a zero, the first 1000 lanes kept. -/
theorem tail_eq (c : Dev nD) :
    Pipeline.afterTail₀ cfgs (dats m) 0 (V0 m) [hostOps1] c main_v7
      = fun j => Cert.Route.GK (En m c) (Ids m c) (j 0) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v5)
      = Gout m c := (Pipeline.withArrays_arr spec0 launch0.win.arr_inj c _ _ 10).trans (final_out m c)
  rw [hw]
  funext j
  obtain ⟨q, rfl⟩ : ∃ q : Fin 1000, j = ix1 q := ⟨j 0, eq_ix1 j⟩
  have hq : q.val < 1024 := by have := q.isLt; omega
  rw [extractStridedSlice_apply _ _ slices_S1024_S1000_0 (ix1 q) (ix1 (⟨q.val, hq⟩ : Fin 1024))
    (fun a => by match a with | ⟨0, _⟩ => show q.val = 0 + q.val; omega)]
  simp only [Host.reduceAdd]
  rw [Ideal.hostReduceAdd_def, reduce_rows]
  show Ideal.ofBits .f32 0x00000000#32 + _ = _
  rw [Ideal.ofBits_zero_f32]
  rfl

/-! ## The run, read -/

/-- Every weakly fair execution of the idealized kernel ends with its result array at the tiled arrangement of the
    routed energy sum of the arguments, and the arguments unchanged. -/
theorem run : θ_run defs (onTc (τ := τ) (main (F := Ideal))) ⟨m, fun _ => 0, ρ⟩ fun r => ∀ c : Dev nD,
      r.2.mem ((c.tc : Thread nD τ).loc main_v7) = (fun j => Cert.Route.GK (En m c) (Ids m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  exact (θ_run defs _ _).mono (fun _ h c => ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main (F := Ideal) m ρ)

end Cert.KernelIdeal.KValue

end
-- ==== Proof.lean ====
/-
  The routed energy sum: per-species three-layer SiLU networks with a linear head give each atom an energy, and the
  energies are summed into the 1000 structures by the atoms' structure ids.

  The kernel walks a 4 × 25 grid (species × tiles of 1000 atoms).  At each point it computes the tile's energies,
  builds the 1000 × 1024 indicator of "this atom's id is this lane", contracts the energies against it on the atom
  axis, and adds the resulting row of 1024 lanes into an accumulator that is zeroed at a species' first tile and
  handed to the species' output row at its last; the host adds the four rows and keeps lanes 0 … 999.  The
  reference computes all 100000 energies and scatter-adds them into 1000 zeros by id, dropping an id outside
  [0, 1000).  Over the extended reals both are, at structure `j`, the sum of the energies of the atoms whose id is
  `j`: an energy times the indicator is the energy or zero, lanes 1000 … 1023 (ids the reference drops) are
  sliced away, an id matching no lane adds nothing on either side, and a finite sum may be regrouped by species,
  tile and row.  No finiteness of the inputs is used: the two sides compute each energy by the same operations
  (a matrix product onto a zero accumulator and the host's contraction are one sum; the narrowing to bf16 is the
  identity; `x · logistic x` is `x · (1 / (1 + e^(-x)))`), and the law that joins the two arrangements holds for
  every extended real.

  The modules: Spec (the two arrangements, as functions), Law (they agree), KernelPay / KernelBlocks / KernelPieces
  / KernelValue (the kernel's result array is the tiled arrangement: the body's terms at an index, the blocks as
  rows of the arguments, what each control case leaves, the induction over the grid points and the host's tail),
  RefScatter / RefEnergy / RefValue (the reference's result is the flat arrangement).
-/
import proofs.«413766_j75771813036181_3_alg».proof.Defs
import proofs.«413766_j75771813036181_3_alg».proof.Proof.Gen.Kernel
import proofs.«413766_j75771813036181_3_alg».proof.Proof.Gen.Kernel.Skeleton
import proofs.«413766_j75771813036181_3_alg».proof.Proof.Gen.Kernel.Launch
import proofs.«413766_j75771813036181_3_alg».proof.Proof.Gen.Kernel.Points
import proofs.«413766_j75771813036181_3_alg».proof.Proof.Gen.Kernel.Frame
import proofs.«413766_j75771813036181_3_alg».proof.Proof.Gen.KernelIdeal
import proofs.«413766_j75771813036181_3_alg».proof.Proof.Gen.KernelIdeal.Skeleton
import proofs.«413766_j75771813036181_3_alg».proof.Proof.Gen.KernelIdeal.Launch
import proofs.«413766_j75771813036181_3_alg».proof.Proof.Gen.KernelIdeal.Points
import proofs.«413766_j75771813036181_3_alg».proof.Proof.Gen.KernelIdeal.Frame
import proofs.«413766_j75771813036181_3_alg».proof.Proof.Gen.ReferenceIdeal
import proofs.«413766_j75771813036181_3_alg».proof.Proof.Gen.ReferenceIdeal.Run
import proofs.«413766_j75771813036181_3_alg».proof.Proof.Gen.ReferenceIdeal.Read
import proofs.«413766_j75771813036181_3_alg».proof.Proof.Gen.Pre_finite_inputs
import proofs.«413766_j75771813036181_3_alg».proof.Proof.Law
import proofs.«413766_j75771813036181_3_alg».proof.Proof.RefValue
import proofs.«413766_j75771813036181_3_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel ends at the tiled arrangement of the routed energy sum and
    the reference at the flat one, of the same energies and ids: one function. -/
theorem algebraic : Cert.algebraic_KernelIdeal_ReferenceIdeal := by
  intro m ρ m' ρ' _ hagree
  refine ⟨fun c => (fun j => Cert.Route.GK (Cert.KernelIdeal.KValue.En m c) (Cert.KernelIdeal.KValue.Ids m c) (j 0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  funext j
  exact (Cert.Route.GK_eq_GR _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
